-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S1x320000 : Shape := ⟨2, ![1, 320000]⟩
abbrev S320000 : Shape := ⟨1, ![320000]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  reducesTo_S320000_S_d0 : S320000.ReducesTo [0] S_

variable [Facts]

def fn_part2 {F : FTy → Type} [FloatOps F] (main_arg1 : IVec S2x320000 32) (main_v33 : IVec S_ 1) : IVec S_ 1 :=
  let main_v34 : IVec S1x320000 32 := (extractStridedSlice S1x320000 ![0, 0] · slices_S2x320000_S1x320000_0_0) main_arg1
  let main_v35 : IVec S320000 32 := shapeCast S320000 main_v34 shapeCasts_S1x320000_S320000
  let main_c_12 : IVec S_ 32 := constantI S_ 32 0#32
  let main_v36 : IVec S320000 32 := broadcastInDim S320000 ![] bcast_S_S320000 main_c_12
  let main_v37 : IVec S320000 1 := cmpi .sge main_v35 main_v36
  let main_v38 : IVec S1x320000 32 := (extractStridedSlice S1x320000 ![0, 0] · slices_S2x320000_S1x320000_0_0) main_arg1
  let main_v39 : IVec S320000 32 := shapeCast S320000 main_v38 shapeCasts_S1x320000_S320000
  let main_c_13 : IVec S_ 32 := constantI S_ 32 10000#32
  let main_v40 : IVec S320000 32 := broadcastInDim S320000 ![] bcast_S_S320000 main_c_13
  let main_v41 : IVec S320000 1 := cmpi .slt main_v39 main_v40
  let main_v42 : IVec S320000 1 := andi main_v37 main_v41
  let main_c_14 : IVec S_ 1 := constantI S_ 1 1#1
  let main_v43 : IVec S_ 1 := (fun x v => Host.reduce IntOp.andi x v reducesTo_S320000_S_d0 h_S_) main_v42 main_c_14
  let main_v44 : IVec S_ 1 := andi main_v33 main_v43
  main_v44

def fn_part1 {F : FTy → Type} [FloatOps F] (main_arg1 : IVec S2x320000 32) (main_arg5 : FVec F S512x128 .f32) (main_arg6 : FVec F S128 .f32) (main_arg7 : FVec F S512x128 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg1 main_v33

def fn {F : FTy → Type} [FloatOps F] (main_arg0 : FVec F S10000x256 .f32) (main_arg1 : IVec S2x320000 32) (main_arg2 : FVec F S256x512 .f32) (main_arg3 : FVec F S512 .f32) (main_arg4 : FVec F S256x512 .f32) (main_arg5 : FVec F S512x128 .f32) (main_arg6 : FVec F S128 .f32) (main_arg7 : FVec F S512x128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg1 main_arg5 main_arg6 main_arg7 main_v13 main_v16
-- ==== Kernel.lean ====
abbrev S10000x256 : Shape := ⟨2, ![10000, 256]⟩
abbrev S2x320000 : Shape := ⟨2, ![2, 320000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10240x10240 : Shape := ⟨2, ![10240, 10240]⟩
abbrev S320000x1 : Shape := ⟨2, ![320000, 1]⟩
abbrev S320000x2 : Shape := ⟨2, ![320000, 2]⟩
abbrev S10240x256 : Shape := ⟨2, ![10240, 256]⟩
abbrev S1x512 : Shape := ⟨2, ![1, 512]⟩
abbrev S1x128 : Shape := ⟨2, ![1, 128]⟩
abbrev S10240x512 : Shape := ⟨2, ![10240, 512]⟩
abbrev S512x10240 : Shape := ⟨2, ![512, 10240]⟩
abbrev S512x512 : Shape := ⟨2, ![512, 512]⟩
abbrev S512x256 : Shape := ⟨2, ![512, 256]⟩
abbrev S10240x128 : Shape := ⟨2, ![10240, 128]⟩
abbrev S10000x128 : Shape := ⟨2, ![10000, 128]⟩

abbrev nBuf : Space → Nat
  | .hbm => 70
  | .vmem => 16
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512x128, .f32⟩
  | .hbm, ⟨6, _⟩ => ⟨S128, .f32⟩
  | .hbm, ⟨7, _⟩ => ⟨S512x128, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S320000, .i1⟩
  | .hbm, ⟨26, _⟩ => ⟨S_, .i32⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S_, .i32⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S_, .i32⟩
  | .hbm, ⟨35, _⟩ => ⟨S10240x10240, .i32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x1, .i32⟩
  | .hbm, ⟨52, _⟩ => ⟨S320000x2, .i32⟩
  | .hbm, ⟨53, _⟩ => ⟨S_, .i32⟩
  | .hbm, ⟨54, _⟩ => ⟨S320000, .i32⟩
  | .hbm, ⟨55, _⟩ => ⟨S10240x10240, .i32⟩
  | .hbm, ⟨56, _⟩ => ⟨S10240x10240, .bf16⟩
  | .hbm, ⟨57, _⟩ => ⟨S_, .i32⟩
  | .hbm, ⟨58, _⟩ => ⟨S_, .f32⟩
  | .hbm, ⟨59, _⟩ => ⟨S10240x256, .f32⟩
  | .hbm, ⟨60, _⟩ => ⟨S10240x256, .bf16⟩
  | .hbm, ⟨61, _⟩ => ⟨S256x512, .bf16⟩
  | .hbm, ⟨62, _⟩ => ⟨S256x512, .bf16⟩
  | .hbm, ⟨63, _⟩ => ⟨S512x128, .bf16⟩
  | .hbm, ⟨64, _⟩ => ⟨S512x128, .bf16⟩
  | .hbm, ⟨65, _⟩ => ⟨S1x512, .f32⟩
  | .hbm, ⟨66, _⟩ => ⟨S1x128, .f32⟩
  | .hbm, ⟨67, _⟩ => ⟨S10240x512, .bf16⟩
  | .hbm, ⟨68, _⟩ => ⟨S10240x128, .f32⟩
  | .hbm, ⟨69, _⟩ => ⟨S10000x128, .f32⟩
  | .local _ .vmem, ⟨0, _⟩ => ⟨S512x10240, .bf16⟩
  | .local _ .vmem, ⟨1, _⟩ => ⟨S512x10240, .bf16⟩
  | .local _ .vmem, ⟨2, _⟩ => ⟨S10240x256, .bf16⟩
  | .local _ .vmem, ⟨3, _⟩ => ⟨S256x512, .bf16⟩
  | .local _ .vmem, ⟨4, _⟩ => ⟨S1x512, .f32⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S512x10240, .bf16⟩
  | .local _ .vmem, ⟨9, _⟩ => ⟨S512x10240, .bf16⟩
  | .local _ .vmem, ⟨10, _⟩ => ⟨S10240x512, .bf16⟩
  | .local _ .vmem, ⟨11, _⟩ => ⟨S512x128, .bf16⟩
  | .local _ .vmem, ⟨12, _⟩ => ⟨S1x128, .f32⟩
  | .local _ .vmem, ⟨13, _⟩ => ⟨S512x128, .bf16⟩
  | .local _ .vmem, ⟨14, _⟩ => ⟨S512x128, .f32⟩
  | .local _ .vmem, ⟨15, _⟩ => ⟨S512x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_c_6 : Ref sig .tc := ⟨.hbm, 36, rfl⟩
abbrev main_v17 : Ref sig .tc := ⟨.hbm, 37, rfl⟩
abbrev main_v18 : Ref sig .tc := ⟨.hbm, 38, rfl⟩
abbrev main_c_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_v22 : Ref sig .tc := ⟨.hbm, 44, rfl⟩
abbrev main_v23 : Ref sig .tc := ⟨.hbm, 45, rfl⟩
abbrev main_c_9 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c512_i32 : BitVec 32 := 512#32
  let v13 : BitVec 32 := Scalar.muli arg0 c512_i32
  v13
def k0_off1 (i : grid0.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let v15 : Index := Scalar.indexCast v14
  let c0_8 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_mult1 (i : grid1.Coords) : BitVec 32 :=
  let arg0 : BitVec 32 := BitVec.ofNat 32 (i 0).val
  let c512_i32 : BitVec 32 := 512#32
  let v13 : BitVec 32 := Scalar.muli arg0 c512_i32
  v13
def k1_off1 (i : grid1.Coords) : Fin 2 → Nat :=
  let arg0 : BitVec 32 := BitVec.ofNat 32 (i 0).val
  let c512_i32 : BitVec 32 := 512#32
  let v13 : BitVec 32 := Scalar.muli arg0 c512_i32
  let v14 : BitVec 32 := v13
  let v15 : Index := Scalar.indexCast v14
  let c0_8 : Index := 0#32
  ![v15.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10240x10240 : S_.BroadcastsInDim S10240x10240 (![] : Fin 0 → Fin S10240x10240.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  pads_S10000x256_S10240x256_02400_000 : S10000x256.Pads (![0, 0] : Fin 2 → Nat) ![240, 0] ![0, 0] S10240x256
  h_S_ : 0 < S_.numel
  bitsLt_bf16_f32 : FTy.bits .bf16 < FTy.bits .f32
  shapeCasts_S512_S1x512 : S512.ShapeCasts S1x512
  shapeCasts_S128_S1x128 : S128.ShapeCasts S1x128
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S10240x512_S10240x512_0_0 : ∀ a, (![0, 0] : Fin 2 → Nat) a + S10240x512.size a ≤ S10240x512.size a
  h_S10240x512 : 0 < S10240x512.numel
  shapeCasts_S10240x512_S10240x512 : S10240x512.ShapeCasts S10240x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S512x512_S512x512 : S512x512.ShapeCasts S512x512
  slices_S10240x128_S10000x128_0_0 : S10240x128.Slices ![0, 0] S10000x128
  scatter_S10240x10240_S320000x2_S320000_n_01_01_1_wf : ScatterDims.WF S10240x10240 S320000x2 S320000 [] [0, 1] [0, 1] 1
  dot_S512x10240_S10240x256_S512x256_1_0_0_1_n_n_wf : DotDims.WF S512x10240 S10240x256 S512x256 [1] [0] [0] [1] [] []
  dot_S512x256_S256x512_S512x512_1_0_0_1_n_n_wf : DotDims.WF S512x256 S256x512 S512x512 [1] [0] [0] [1] [] []
  dot_S512x10240_S10240x512_S512x512_1_0_0_1_n_n_wf : DotDims.WF S512x10240 S10240x512 S512x512 [1] [0] [0] [1] [] []
  dot_S512x512_S512x128_S512x128_1_0_0_1_n_n_wf : DotDims.WF S512x512 S512x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x256.size a ≤ S10240x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10240.size a ≤ S10240x10240.size a
  hwx0_0 : ∀ i : grid0.Coords, EltTy.bits .bf16 = 32 ∨ (Rect.block (s := S10240x10240) S512x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x256.size a ≤ S10240x256.size a
  hwx0_1 : ∀ i : grid0.Coords, EltTy.bits .bf16 = 32 ∨ (Rect.block (s := S10240x256) S10240x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S10240x512.size a
  hwx0_5 : ∀ i : grid0.Coords, EltTy.bits .bf16 = 32 ∨ (Rect.block (s := S10240x512) S512x512.size (cc0_transform_5 i) (hinb0_5 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x512.size a ≤ S10240x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .bf16 = 32 ∨ (Rect.block (s := S512x128) S512x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S10240x128.size a
  hwx1_5 : ∀ i : grid1.Coords, EltTy.bits .f32 = 32 ∨ (Rect.block (s := S10240x128) S512x128.size (cc1_transform_5 i) (hinb1_5 i)).WholeWords (EltTy.packing .f32)

variable [Facts₀]

def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def dot_S512x10240_S10240x256_S512x256_1_0_0_1_n_n : DotDims S512x10240 S10240x256 S512x256 where
  lhsContracting := [1]
  rhsContracting := [0]
  lhsNonContracting := [0]
  rhsNonContracting := [1]
  lhsBatch := []
  rhsBatch := []
  wf := dot_S512x10240_S10240x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x10240_S10240x512_S512x512_1_0_0_1_n_n : DotDims S512x10240 S10240x512 S512x512 where
  lhsContracting := [1]
  rhsContracting := [0]
  lhsNonContracting := [0]
  rhsNonContracting := [1]
  lhsBatch := []
  rhsBatch := []
  wf := dot_S512x10240_S10240x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v32) S512x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S10240x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000x512 : Shape := ⟨2, ![10000, 512]⟩
abbrev S1x512 : Shape := ⟨2, ![1, 512]⟩
abbrev S320000x512 : Shape := ⟨2, ![320000, 512]⟩
abbrev S10000x128 : Shape := ⟨2, ![10000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512x128, .f32⟩
  | .hbm, ⟨6, _⟩ => ⟨S128, .f32⟩
  | .hbm, ⟨7, _⟩ => ⟨S512x128, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .f32⟩
  | .hbm, ⟨22, _⟩ => ⟨S10000x256, .f32⟩
  | .hbm, ⟨23, _⟩ => ⟨S320000x1, .i32⟩
  | .hbm, ⟨24, _⟩ => ⟨S10000x256, .f32⟩
  | .hbm, ⟨25, _⟩ => ⟨S10000x512, .f32⟩
  | .hbm, ⟨26, _⟩ => ⟨S1x512, .f32⟩
  | .hbm, ⟨27, _⟩ => ⟨S10000x512, .f32⟩
  | .hbm, ⟨28, _⟩ => ⟨S10000x512, .f32⟩
  | .hbm, ⟨29, _⟩ => ⟨S10000x512, .f32⟩
  | .hbm, ⟨30, _⟩ => ⟨S10000x512, .f32⟩
  | .hbm, ⟨31, _⟩ => ⟨S_, .f32⟩
  | .hbm, ⟨32, _⟩ => ⟨S10000x512, .f32⟩
  | .hbm, ⟨33, _⟩ => ⟨S10000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S_, .f32⟩
  | .hbm, ⟨44, _⟩ => ⟨S10000x512, .f32⟩
  | .hbm, ⟨45, _⟩ => ⟨S320000x1, .i32⟩
  | .hbm, ⟨46, _⟩ => ⟨S10000x512, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x512_S10000x512_1_0_0_1_n_n_wf : DotDims.WF S10000x256 S256x512 S10000x512 [1] [0] [0] [1] [] []
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x128_S10000x128_1_0_0_1_n_n_wf : DotDims.WF S10000x512 S512x128 S10000x128 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.SageSpec.lean ====
/-
  Two layers of a sum-aggregating graph convolution, on the extended reals.

  A graph has N nodes and E directed edges; edge e goes from node src(e) to node dst(e), both given as integers.
  Every node carries a row of features.  One layer sends each node d to

      (sum over the edges e ending at d of the row of src(e)) · Wl  +  b  +  (row of d) · Wr,

  the first layer is followed by max(·, 0), the second is not.  An edge whose end is not a node number contributes to
  no node; a source that is not a node number is read as a row of zeros (the statement's precondition keeps every
  source a node number, and this reading is then never used).

  The same aggregate is a matrix product with the table of edge counts: if C(d, s) is the number of edges from s
  to d, then the sum over the edges ending at d of row(src e) is the sum over s of C(d, s) · row(s).  On the
  extended reals this needs no finiteness: a natural number n times y is y added n times, for every y.
-/
import Idealize.ShloMosaic.PureOps.Ideal
import Idealize.ShloMosaic.Lib.ValueIdx

noncomputable section

open scoped BigOperators

namespace Cert.Sage

open Idealize.ShloMosaic Idealize.ShloMosaic.ValueIdx

/-- Row `s` of a table of `N` rows when `s` is one of its row numbers, a row of zeros otherwise. -/
def rowAt {N : Nat} {K : Type} (x : Fin N → K → EReal) (s : ℤ) (k : K) : EReal :=
  if h : 0 ≤ s ∧ s < (N : ℤ) then x ⟨s.toNat, by omega⟩ k else 0

/-- The sum, over the edges that end at node `d`, of the source node's row. -/
def segsum {E N : Nat} {K : Type} (src dst : Fin E → ℤ) (x : Fin N → K → EReal) (d : Fin N) (k : K) : EReal :=
  ∑ e ∈ Finset.univ.filter (fun e : Fin E => dst e = (d.val : ℤ)), rowAt x (src e) k

/-- One layer at node `r`, output column `c`: the aggregate through the left weights, plus the bias, plus the node's
    own row through the right weights (added in this order). -/
def layer {R : Type} {K C : Nat} (agg x : R → Fin K → EReal) (Wl Wr : Fin K → Fin C → EReal) (b : Fin C → EReal)
    (r : R) (c : Fin C) : EReal :=
  (∑ k : Fin K, agg r k * Wl k c) + b c + ∑ k : Fin K, x r k * Wr k c

/-- The hidden features: the first layer followed by max(·, 0). -/
def hidden {E N K H : Nat} (src dst : Fin E → ℤ) (x : Fin N → Fin K → EReal) (W1l W1r : Fin K → Fin H → EReal)
    (b1 : Fin H → EReal) (r : Fin N) (h : Fin H) : EReal :=
  max (layer (segsum src dst x) x W1l W1r b1 r h) 0

/-- The network's output: the second layer over the hidden features. -/
def out {E N K H C : Nat} (src dst : Fin E → ℤ) (x : Fin N → Fin K → EReal) (W1l W1r : Fin K → Fin H → EReal)
    (b1 : Fin H → EReal) (W2l W2r : Fin H → Fin C → EReal) (b2 : Fin C → EReal) (r : Fin N) (c : Fin C) : EReal :=
  layer (segsum src dst (hidden src dst x W1l W1r b1)) (hidden src dst x W1l W1r b1) W2l W2r b2 r c

/-- A rank-2 array as a matrix. -/
def mat {R C : Nat} (a : (⟨2, ![R, C]⟩ : Shape).Idx → EReal) (r : Fin R) (c : Fin C) : EReal := a (ix2 r c)

/-- A rank-1 array as a vector. -/
def vec {C : Nat} (a : (⟨1, ![C]⟩ : Shape).Idx → EReal) (c : Fin C) : EReal := a (ix1 c)

/-- Row `j` of the 2×E table of edge ends, read as signed integers. -/
def ends {E : Nat} (ei : (⟨2, ![2, E]⟩ : Shape).Idx → BitVec 32) (j : Fin 2) (e : Fin E) : ℤ := (ei (ix2 j e)).toInt

/-- THE RESULT both programs compute, as one function of the eight argument arrays, index by index. -/
def G (x : (⟨2, ![10000, 256]⟩ : Shape).Idx → EReal) (ei : (⟨2, ![2, 320000]⟩ : Shape).Idx → BitVec 32)
    (W1l : (⟨2, ![256, 512]⟩ : Shape).Idx → EReal) (b1 : (⟨1, ![512]⟩ : Shape).Idx → EReal)
    (W1r : (⟨2, ![256, 512]⟩ : Shape).Idx → EReal) (W2l : (⟨2, ![512, 128]⟩ : Shape).Idx → EReal)
    (b2 : (⟨1, ![128]⟩ : Shape).Idx → EReal) (W2r : (⟨2, ![512, 128]⟩ : Shape).Idx → EReal) :
    (⟨2, ![10000, 128]⟩ : Shape).Idx → EReal :=
  fun i => out (ends ei 0) (ends ei 1) (mat x) (mat W1l) (mat W1r) (vec b1) (mat W2l) (mat W2r) (vec b2)
    ⟨(i 0).val, idx2_lt0 i⟩ ⟨(i 1).val, idx2_lt1 i⟩

/-! ## The kernel's arrangement: padded tables and the table of edge counts -/

/-- One layer as the padded kernel computes it at row `r`, column `q`: the aggregate is the product of a square table
    `A` (edge counts) with the feature table `X`, then as `layer`. -/
def tileLayer {P K C : Nat} (A : (⟨2, ![P, P]⟩ : Shape).Idx → EReal) (X : (⟨2, ![P, K]⟩ : Shape).Idx → EReal)
    (Wl : (⟨2, ![K, C]⟩ : Shape).Idx → EReal) (b : (⟨2, ![1, C]⟩ : Shape).Idx → EReal)
    (Wr : (⟨2, ![K, C]⟩ : Shape).Idx → EReal) (r : Fin P) (q : Fin C) : EReal :=
  (∑ k : Fin K, (∑ s : Fin P, A (ix2 r s) * X (ix2 s k)) * Wl (ix2 k q)) + b (ix2 (0 : Fin 1) q)
    + ∑ k : Fin K, X (ix2 r k) * Wr (ix2 k q)

/-- An edge end as the kernel routes it: a node number stays, anything else goes to the last padding row. -/
def sinkOf (v : ℤ) : ℤ := if 0 ≤ v ∧ v < 10000 then v else 10239

/-- The kernel's table of edge counts: the number of edges routed to (row `a`, column `b`), rows by edge end,
    columns by edge source. -/
def counts {E : Nat} (src dst : Fin E → ℤ) (a b : Fin 10240) : ℕ :=
  (Finset.univ.filter (fun e : Fin E => sinkOf (dst e) = (a.val : ℤ) ∧ sinkOf (src e) = (b.val : ℤ))).card

end Cert.Sage

end
-- ==== Proof.PreDecode.lean ====
/-
  The statement's precondition says, among other things, that every edge's source is a node number.

  The precondition is a conjunction of eight one-bit tests.  The last of them takes row 0 of the 2 × 320000 table of
  edge ends, compares every word of it (signed) with 0 from below and with 10000 from above, and asks that all of
  the 320000 answers be 1.  This file reads that last test back: if the whole conjunction is 1, then every word of
  row 0, read as a signed integer, lies in 0 … 9999.
-/
import proofs.«413754_j79628693668165_3_alg».proof.Pre_finite_inputs
import proofs.«413754_j79628693668165_3_alg».proof.Proof.SageSpec
import Idealize.ShloMosaic.Lib.ReduceAll
import Idealize.ShloMosaic.Lib.StableHlo.Predicate
import Idealize.ShloMosaic.Lib.ValueIdx
import Idealize.ShloMosaic.Lib.Pipeline.Value

noncomputable section

namespace Cert.PreDecode

open Idealize.ShloMosaic Idealize.ShloMosaic.ValueIdx Cert.Pre_finite_inputs

/-- The scalar shape has exactly one index: two of them are functions out of the empty set of axes. -/
instance subsingleton_scalar_idx : Subsingleton S_.Idx := ⟨fun a b => funext fun d => d.elim0⟩

/-- Row 0 of the table, cut out as a 1 × 320000 slice and then flattened to a vector of 320000 words, has at
    position `e` the table's word at (0, e): the slice starts at offset (0, 0), and position `e` of the vector is
    row-major position 0 · 320000 + e of the slice. -/
theorem row0_read [Cert.Pre_finite_inputs.Facts] (a1 : IVec S2x320000 32) (e : Fin 320000) :
    shapeCast S320000
        ((extractStridedSlice S1x320000 ![0, 0] · Facts.slices_S2x320000_S1x320000_0_0) a1)
        Facts.shapeCasts_S1x320000_S320000 (ix1 e)
      = a1 (ix2 (0 : Fin 2) e) := by
  refine (shapeCast_apply _ Facts.shapeCasts_S1x320000_S320000 (ix1 e) (ix2 (0 : Fin 1) e) ?_).trans ?_
  · rw [Shape.rowMajor_val_two, Shape.rowMajor_val_one]
    show 0 * 320000 + e.val = e.val
    omega
  · refine extractStridedSlice_apply ![0, 0] a1 Facts.slices_S2x320000_S1x320000_0_0 (ix2 (0 : Fin 1) e)
      (ix2 (0 : Fin 2) e) fun a => ?_
    match a with
    | ⟨0, _⟩ => rfl
    | ⟨1, _⟩ => show e.val = 0 + e.val; omega

/-- The last conjunct alone: if the final part of the printed precondition is 1 (whatever one-bit word the earlier
    tests produced), then the word at (0, e) of the table is at least 0 and below 10000, signed. -/
theorem part2_range [Cert.Pre_finite_inputs.Facts] (a1 : IVec S2x320000 32) (v33 : IVec S_ 1)
    (h : Cert.Pre_finite_inputs.fn_part2 (F := Ideal) a1 v33 ix0 = 1#1) (e : Fin 320000) :
    0 ≤ (a1 (ix2 (0 : Fin 2) e)).toInt ∧ (a1 (ix2 (0 : Fin 2) e)).toInt < 10000 := by
  -- the result is the earlier tests' bit AND the "all of them" bit: keep the second
  have hall := (IntOp.andi_eq_one.1 h).2
  -- "all of them" is 1, so the bit at position e is 1
  have hi := Host.reduce_andi_all _ _ _ _ _ hall (ix1 e)
  -- that bit is (word ≥ 0) AND (word < 10000)
  obtain ⟨hge, hlt⟩ := IntOp.andi_eq_one.1 hi
  have hge' := IntOp.cmpi_sge.1 hge
  have hlt' := IntOp.cmpi_slt.1 hlt
  rw [row0_read a1 e] at hge' hlt'
  -- the two bounds are the constants 0 and 10000 laid along the vector; as signed integers they are 0 and 10000
  have hz : (0#32 : BitVec 32).toInt = 0 := by decide
  have ht : (10000#32 : BitVec 32).toInt = 10000 := by decide
  change (0#32 : BitVec 32).toInt ≤ _ at hge'
  change _ < (10000#32 : BitVec 32).toInt at hlt'
  rw [hz] at hge'
  rw [ht] at hlt'
  exact ⟨hge', hlt'⟩

/-- If the precondition holds of the eight argument arrays, then every word of row 0 of the table of edge ends,
    read as a signed integer, lies in 0 … 9999. -/
theorem src_range [Cert.Pre_finite_inputs.Facts] (a0 : FVec Ideal S10000x256 .f32) (a1 : IVec S2x320000 32)
    (a2 : FVec Ideal S256x512 .f32) (a3 : FVec Ideal S512 .f32) (a4 : FVec Ideal S256x512 .f32)
    (a5 : FVec Ideal S512x128 .f32) (a6 : FVec Ideal S128 .f32) (a7 : FVec Ideal S512x128 .f32)
    (h : Cert.Pre_finite_inputs.fn (F := Ideal) a0 a1 a2 a3 a4 a5 a6 a7 = fun _ => 1#1) :
    ∀ e : Fin 320000, 0 ≤ Cert.Sage.ends a1 0 e ∧ Cert.Sage.ends a1 0 e < 10000 := by
  intro e
  have h0 := congrFun h ValueIdx.ix0
  exact part2_range a1 _ h0 e

end Cert.PreDecode

end
-- ==== Proof.SageCount.lean ====
/-
  Aggregating over the edges is multiplying by the table of edge counts.

  If every edge's source is a node number, then for a node d the sum, over the edges that end at d, of the source's
  row equals the sum over all padded rows s of (the number of edges routed to (d, s)) times row s: group the edges
  ending at d by their source; a natural number n times y is y added n times, on all extended reals; and the padded
  rows s ≥ 10000 are met by no edge, so whatever they hold is multiplied by zero.
-/
import proofs.«413754_j79628693668165_3_alg».proof.Proof.SageSpec
import Mathlib.Data.EReal.Operations
import Mathlib.Data.Finset.Filter
import Mathlib.Algebra.BigOperators.Group.Finset.Basic

noncomputable section

open scoped BigOperators

namespace Cert.Sage

open Idealize.ShloMosaic Idealize.ShloMosaic.ValueIdx

/-- An edge end is routed to the row of a node number exactly when it is that node number: anything else goes to
    the last padding row, which is no node number. -/
private theorem sinkOf_eq_node (v : ℤ) (d : ℕ) (hd : d < 10000) : sinkOf v = (d : ℤ) ↔ v = (d : ℤ) := by
  unfold sinkOf
  split_ifs with h
  · exact Iff.rfl
  · constructor
    · intro h'; omega
    · intro h'; omega

/-- A node number is routed to itself. -/
private theorem sinkOf_of_node (v : ℤ) (h : 0 ≤ v ∧ v < 10000) : sinkOf v = v := if_pos h

/-- The aggregate at node `d`, column `k`, as the product of row `d` of the count table with column `k` of a padded
    table `Y` whose first 10000 rows are `y`. -/
theorem agg_counts {E K : Nat} (src dst : Fin E → ℤ) (hsrc : ∀ e, 0 ≤ src e ∧ src e < 10000)
    (Y : Fin 10240 → Fin K → EReal) (y : Fin 10000 → Fin K → EReal)
    (hY : ∀ (s : Fin 10000) (k : Fin K), Y ⟨s.val, by have := s.isLt; omega⟩ k = y s k)
    (d : Fin 10000) (k : Fin K) :
    ∑ s : Fin 10240, (((counts src dst ⟨d.val, by have := d.isLt; omega⟩ s : ℕ) : ℝ) : EReal) * Y s k
      = segsum src dst y d k := by
  -- the padded row that holds an edge's source
  let g : Fin E → Fin 10240 := fun e => ⟨(src e).toNat, by have := hsrc e; omega⟩
  have hg : ∀ e, ((g e).val : ℤ) = src e := fun e => by
    have := hsrc e
    show (((src e).toNat : ℕ) : ℤ) = src e
    omega
  -- a count times a value is the value added once for every edge counted
  have hcount : ∀ s : Fin 10240,
      (((counts src dst ⟨d.val, by have := d.isLt; omega⟩ s : ℕ) : ℝ) : EReal) * Y s k
        = ∑ e ∈ (Finset.univ.filter (fun e : Fin E => dst e = (d.val : ℤ))).filter (fun e => g e = s), Y (g e) k := by
    intro s
    rw [EReal.coe_natCast, ← EReal.nsmul_eq_mul, counts, ← Finset.sum_const, Finset.filter_filter]
    refine Finset.sum_congr (Finset.filter_congr fun e _ => ?_) (fun e he => ?_)
    · rw [sinkOf_eq_node _ d.val d.isLt, sinkOf_of_node _ (hsrc e), ← hg e]
      constructor
      · rintro ⟨h1, h2⟩
        exact ⟨h1, Fin.ext (by exact_mod_cast h2)⟩
      · rintro ⟨h1, h2⟩
        exact ⟨h1, by rw [h2]⟩
    · rw [(Finset.mem_filter.mp he).2.2]
  simp only [hcount]
  -- grouping the edges that end at d by the row of their source loses none and repeats none
  rw [Finset.sum_fiberwise_of_maps_to (fun e _ => Finset.mem_univ (g e))]
  unfold segsum
  refine Finset.sum_congr rfl fun e _ => ?_
  unfold rowAt
  have h' : 0 ≤ src e ∧ src e < ((10000 : ℕ) : ℤ) := by exact_mod_cast hsrc e
  rw [dif_pos h']
  exact hY ⟨(src e).toNat, by have := hsrc e; omega⟩ k

/-- One padded layer at a node's row is the layer of the specification. -/
theorem tileLayer_eq_layer {E K C : Nat} (src dst : Fin E → ℤ) (hsrc : ∀ e, 0 ≤ src e ∧ src e < 10000)
    (A : (⟨2, ![10240, 10240]⟩ : Shape).Idx → EReal) (X : (⟨2, ![10240, K]⟩ : Shape).Idx → EReal)
    (Wl Wr : (⟨2, ![K, C]⟩ : Shape).Idx → EReal) (b : (⟨2, ![1, C]⟩ : Shape).Idx → EReal)
    (y : Fin 10000 → Fin K → EReal) (b' : Fin C → EReal)
    (hA : ∀ a s : Fin 10240, A (ix2 a s) = (((counts src dst a s : ℕ) : ℝ) : EReal))
    (hX : ∀ (s : Fin 10000) (k : Fin K), X (ix2 (⟨s.val, by have := s.isLt; omega⟩ : Fin 10240) k) = y s k)
    (hb : ∀ q : Fin C, b (ix2 (0 : Fin 1) q) = b' q)
    (d : Fin 10000) (q : Fin C) :
    tileLayer A X Wl b Wr (⟨d.val, by have := d.isLt; omega⟩ : Fin 10240) q
      = layer (segsum src dst y) y (mat Wl) (mat Wr) b' d q := by
  unfold tileLayer layer mat
  -- row d of the count table times column k of the padded features is the aggregate at (d, k)
  have hagg : ∀ k : Fin K,
      ∑ s : Fin 10240, A (ix2 (⟨d.val, by have := d.isLt; omega⟩ : Fin 10240) s) * X (ix2 s k) = segsum src dst y d k :=
    fun k => by
      rw [← agg_counts src dst hsrc (fun s k => X (ix2 s k)) y hX d k]
      exact Finset.sum_congr rfl fun s _ => by rw [hA]
  simp only [hagg, hb, hX]

end Cert.Sage

end
-- ==== Proof.KValue.lean ====
/-
  From the tables the host code prepares to the program's result.

  The first pipeline is entered with the table of edge counts, the zero-padded features and the first layer's weights
  and bias row, and leaves the padded table of hidden features.  The second is entered with the same count table (an
  input of the first pipeline, so left as it was), the hidden table (the first pipeline's output), and the second
  layer's weights and bias row (no arrays of the first pipeline, so as the host code left them); the program's
  result is the first 10000 rows of what it leaves.  At a node's row either padded layer is the specification's
  layer, by the counting identity; the hidden rows past the last node are met by no edge and reach no node's row.

  The facts about the two pipelines and about the host code's tables are taken here as hypotheses; they are proved
  in the modules on the pipelines and on the host code.
-/
import proofs.«413754_j79628693668165_3_alg».proof.Proof.Gen.KernelIdeal.Frame
import proofs.«413754_j79628693668165_3_alg».proof.Proof.SageSpec
import proofs.«413754_j79628693668165_3_alg».proof.Proof.SageCount
import Idealize.ShloMosaic.Lib.StableHlo.Run
import Idealize.ShloMosaic.Lib.Pipeline.Value
import Idealize.ShloMosaic.Lib.ValueIdx

noncomputable section

open scoped BigOperators

namespace Cert.KValue

open Idealize.ShloMosaic Idealize.ShloMosaic.TcCoe Idealize.ShloMosaic.ValueIdx Idealize.SL.Sem Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-! ## The tables at the first pipeline's entry, at their literal types -/

abbrev tA : Vec Ideal S10240x10240 .bf16 := W7 m ρ c (Proc.devRef .tc main_v32)
abbrev tX : Vec Ideal S10240x256 .bf16 := W7 m ρ c (Proc.devRef .tc main_v34)
abbrev tW1l : Vec Ideal S256x512 .bf16 := W7 m ρ c (Proc.devRef .tc main_v35)
abbrev tW1r : Vec Ideal S256x512 .bf16 := W7 m ρ c (Proc.devRef .tc main_v36)
abbrev tW2l : Vec Ideal S512x128 .bf16 := W7 m ρ c (Proc.devRef .tc main_v37)
abbrev tW2r : Vec Ideal S512x128 .bf16 := W7 m ρ c (Proc.devRef .tc main_v38)
abbrev tB1 : Vec Ideal S1x512 .f32 := W7 m ρ c (Proc.devRef .tc main_v39)
abbrev tB2 : Vec Ideal S1x128 .f32 := W7 m ρ c (Proc.devRef .tc main_v40)
/-- The padded hidden table: what the first pipeline leaves in its output. -/
abbrev tH : Vec Ideal S10240x512 .bf16 := (dat0 (V7 m ρ) c).arrAt 5 cfg0.N
/-- What the second pipeline leaves in its output. -/
abbrev tO : Vec Ideal S10240x128 .f32 := (dat1 (V8 m ρ) c).arrAt 5 cfg1.N

/-! ## The second pipeline's tables, read back -/

/-- The count table is an input of the first pipeline: it enters the second as it entered the first. -/
theorem second_A : (V8 m ρ c main_v32 : Vec Ideal S10240x10240 .bf16) = tA m ρ c :=
  (W8_arr m ρ c 0).trans (((dat0 (V7 m ρ) c).arrAt_in 0 rfl cfg0.N).trans (A_eq0 (V7 m ρ) c 0))

/-- The second pipeline's feature table is the first one's output. -/
theorem second_H : (V8 m ρ c main_v41 : Vec Ideal S10240x512 .bf16) = tH m ρ c := W8_arr m ρ c 5

/-- The second layer's weights and bias row are no arrays of the first pipeline. -/
theorem second_W2l : (V8 m ρ c main_v37 : Vec Ideal S512x128 .bf16) = tW2l m ρ c := W8_of_ne m ρ c main_v37 (by decide)
theorem second_W2r : (V8 m ρ c main_v38 : Vec Ideal S512x128 .bf16) = tW2r m ρ c := W8_of_ne m ρ c main_v38 (by decide)
theorem second_B2 : (V8 m ρ c main_v40 : Vec Ideal S1x128 .f32) = tB2 m ρ c := W8_of_ne m ρ c main_v40 (by decide)

/-- The result array is the first 10000 rows of the second pipeline's output. -/
theorem result_slice (r : Fin 10000) (q : Fin 128) :
    (W10 (F := Ideal) m ρ c (Proc.devRef .tc main_v43) : Vec Ideal S10000x128 .f32) (ix2 r q)
      = tO m ρ c (ix2 (⟨r.val, by have := r.isLt; omega⟩ : Fin 10240) q) := by
  have hs : (W10 (F := Ideal) m ρ c (Proc.devRef .tc main_v43) : Vec Ideal S10000x128 .f32)
      = extractStridedSlice S10000x128 ![0, 0]
          (W9 (F := Ideal) m ρ c (Proc.devRef .tc main_v42) : Vec Ideal S10240x128 .f32) slices_S10240x128_S10000x128_0_0 := by
    dsimp only [W10, hostOps2]
    after_results
  rw [hs, show (W9 (F := Ideal) m ρ c (Proc.devRef .tc main_v42) : Vec Ideal S10240x128 .f32) = tO m ρ c from W9_arr m ρ c 5]
  exact extractStridedSlice_apply _ _ _ (ix2 r q) _ (fun a => by
    match a with
    | ⟨0, _⟩ => exact (Nat.zero_add _).symm
    | ⟨1, _⟩ => exact (Nat.zero_add _).symm)

/-! ## The result -/

/-- THE KERNEL PROGRAM'S RESULT is the specification's G of the argument arrays, given what the two pipelines leave
    (`hR0`, `hR1`) and what the host code's tables hold (`hA` … `hb2`). -/
theorem result_eq_G
    (hsrc : ∀ e : Fin 320000, 0 ≤ Cert.Sage.ends (m ((c : Thread nD τ).loc main_arg1)) 0 e
      ∧ Cert.Sage.ends (m ((c : Thread nD τ).loc main_arg1)) 0 e < 10000)
    (hR0 : ∀ (r : Fin 10240) (q : Fin 512), tH m ρ c (ix2 r q)
      = max (Cert.Sage.tileLayer (tA m ρ c) (tX m ρ c) (tW1l m ρ c) (tB1 m ρ c) (tW1r m ρ c) r q) 0)
    (hR1 : ∀ (r : Fin 10240) (q : Fin 128), tO m ρ c (ix2 r q)
      = Cert.Sage.tileLayer (V8 m ρ c main_v32 : Vec Ideal S10240x10240 .bf16) (V8 m ρ c main_v41 : Vec Ideal S10240x512 .bf16)
          (V8 m ρ c main_v37 : Vec Ideal S512x128 .bf16) (V8 m ρ c main_v40 : Vec Ideal S1x128 .f32)
          (V8 m ρ c main_v38 : Vec Ideal S512x128 .bf16) r q)
    (hA : ∀ a b : Fin 10240, tA m ρ c (ix2 a b)
      = (((Cert.Sage.counts (Cert.Sage.ends (m ((c : Thread nD τ).loc main_arg1)) 0)
            (Cert.Sage.ends (m ((c : Thread nD τ).loc main_arg1)) 1) a b : ℕ) : ℝ) : EReal))
    (hX : ∀ (a : Fin 10240) (k : Fin 256), tX m ρ c (ix2 a k)
      = (if h : a.val < 10000 then ((m ((c : Thread nD τ).loc main_arg0) : Vec Ideal S10000x256 .f32) (ix2 ⟨a.val, h⟩ k) : EReal)
          else (0 : EReal)))
    (hW1l : tW1l m ρ c = m ((c : Thread nD τ).loc main_arg2)) (hW1r : tW1r m ρ c = m ((c : Thread nD τ).loc main_arg4))
    (hW2l : tW2l m ρ c = m ((c : Thread nD τ).loc main_arg5)) (hW2r : tW2r m ρ c = m ((c : Thread nD τ).loc main_arg7))
    (hb1 : ∀ q : Fin 512, tB1 m ρ c (ix2 (0 : Fin 1) q) = (m ((c : Thread nD τ).loc main_arg3) : Vec Ideal S512 .f32) (ix1 q))
    (hb2 : ∀ q : Fin 128, tB2 m ρ c (ix2 (0 : Fin 1) q) = (m ((c : Thread nD τ).loc main_arg6) : Vec Ideal S128 .f32) (ix1 q)) :
    (W10 (F := Ideal) m ρ c (Proc.devRef .tc main_v43) : Vec Ideal S10000x128 .f32)
      = Cert.Sage.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  -- the first layer at a node's row: the hidden table's row is the specification's hidden row
  have hX' : ∀ (s : Fin 10000) (k : Fin 256),
      tX m ρ c (ix2 (⟨s.val, by have := s.isLt; omega⟩ : Fin 10240) k)
        = Cert.Sage.mat (m ((c : Thread nD τ).loc main_arg0)) s k := by
    intro s k
    rw [hX, dif_pos s.isLt]
    rfl
  have hhid : ∀ (s : Fin 10000) (k : Fin 512),
      tH m ρ c (ix2 (⟨s.val, by have := s.isLt; omega⟩ : Fin 10240) k)
        = Cert.Sage.hidden (Cert.Sage.ends (m ((c : Thread nD τ).loc main_arg1)) 0)
            (Cert.Sage.ends (m ((c : Thread nD τ).loc main_arg1)) 1) (Cert.Sage.mat (m ((c : Thread nD τ).loc main_arg0)))
            (Cert.Sage.mat (m ((c : Thread nD τ).loc main_arg2))) (Cert.Sage.mat (m ((c : Thread nD τ).loc main_arg4)))
            (Cert.Sage.vec (m ((c : Thread nD τ).loc main_arg3))) s k := by
    intro s k
    rw [hR0, Cert.Sage.tileLayer_eq_layer _ _ hsrc (tA m ρ c) (tX m ρ c) (tW1l m ρ c) (tW1r m ρ c) (tB1 m ρ c)
      (Cert.Sage.mat (m ((c : Thread nD τ).loc main_arg0))) (Cert.Sage.vec (m ((c : Thread nD τ).loc main_arg3)))
      hA hX' hb1 s k, hW1l, hW1r]
    rfl
  funext i
  obtain ⟨r, q, rfl⟩ : ∃ (r : Fin 10000) (q : Fin 128), i = ix2 r q := ⟨i 0, i 1, eq_ix2 i⟩
  rw [result_slice, hR1, Cert.Sage.tileLayer_eq_layer _ _ hsrc _ _ _ _ _
      (Cert.Sage.hidden (Cert.Sage.ends (m ((c : Thread nD τ).loc main_arg1)) 0)
        (Cert.Sage.ends (m ((c : Thread nD τ).loc main_arg1)) 1) (Cert.Sage.mat (m ((c : Thread nD τ).loc main_arg0)))
        (Cert.Sage.mat (m ((c : Thread nD τ).loc main_arg2))) (Cert.Sage.mat (m ((c : Thread nD τ).loc main_arg4)))
        (Cert.Sage.vec (m ((c : Thread nD τ).loc main_arg3))))
      (Cert.Sage.vec (m ((c : Thread nD τ).loc main_arg6)))
      (fun a s => by rw [second_A]; exact hA a s)
      (fun s k => by rw [second_H]; exact hhid s k)
      (fun q' => by rw [second_B2]; exact hb2 q') r q,
    second_W2l, second_W2r, hW2l, hW2r]
  rfl

end Cert.KValue

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.KPayload.lean ====
/-
  The two kernel bodies read at one output entry, on the extended reals.

  Each body is a chain of pointwise operations around three matrix products.  Read at the entry (p, q) of
  its result:

    * a shape cast to the same shape changes nothing, and a change of float format is the identity on
      extended reals;
    * a product into the zero accumulator, contracting the left operand's columns against the right
      operand's rows, is the sum  ∑ₖ l(p, k) · r(k, q);
    * a [1, n] row broadcast over the rows is the row's entry at column q;
    * a sum (a maximum) of two arrays is the sum (the maximum) of their entries, and the zero word is 0.

  So the first layer's body at (p, q) is
      max( ∑ₖ (∑ₛ A(p, s) · X(s, k)) · Wl(k, q)  +  b(0, q)  +  ∑ₖ Xr(p, k) · Wr(k, q),  0 ),
  and the second layer's body is the same expression without the maximum.
-/
import proofs.«413754_j79628693668165_3_alg».proof.Proof.Gen.KernelIdeal.Skeleton
import proofs.«413754_j79628693668165_3_alg».proof.Proof.LibPlainMatmul
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KPayload

open Idealize.ShloMosaic Idealize.ShloMosaic.ValueIdx Cert.KernelIdeal Cert.KernelIdeal.Gen

variable {φ₁ φ₂ : FTy}

/-! ## The four products of the two bodies, at an entry

Each printed record of dimension numbers contracts the left operand's second axis against the right operand's
first, with no batch axes: it is the plain M×K by K×N record, field by field. -/

/-- Entry (a, b) of the 512×10240 by 10240×256 product into the zero accumulator. -/
theorem matmul_512_10240_256 (l : FVec Ideal S512x10240 φ₁) (r : FVec Ideal S10240x256 φ₂) (a : Fin 512) (b : Fin 256) :
    matmul dot_S512x10240_S10240x256_S512x256_1_0_0_1_n_n none l r (constant (F := Ideal) S512x256 .f32 0x00000000#32) (ix2 a b)
      = ∑ k : Fin 10240, l (ix2 a k) * r (ix2 k b) :=
  Cert.LibPlainMatmul.matmul_zero_apply 512 10240 256 none l r a b

/-- Entry (a, b) of the 512×256 by 256×512 product into the zero accumulator. -/
theorem matmul_512_256_512 (l : FVec Ideal S512x256 φ₁) (r : FVec Ideal S256x512 φ₂) (a : Fin 512) (b : Fin 512) :
    matmul dot_S512x256_S256x512_S512x512_1_0_0_1_n_n none l r (constant (F := Ideal) S512x512 .f32 0x00000000#32) (ix2 a b)
      = ∑ k : Fin 256, l (ix2 a k) * r (ix2 k b) :=
  Cert.LibPlainMatmul.matmul_zero_apply 512 256 512 none l r a b

/-- Entry (a, b) of the 512×10240 by 10240×512 product into the zero accumulator. -/
theorem matmul_512_10240_512 (l : FVec Ideal S512x10240 φ₁) (r : FVec Ideal S10240x512 φ₂) (a : Fin 512) (b : Fin 512) :
    matmul dot_S512x10240_S10240x512_S512x512_1_0_0_1_n_n none l r (constant (F := Ideal) S512x512 .f32 0x00000000#32) (ix2 a b)
      = ∑ k : Fin 10240, l (ix2 a k) * r (ix2 k b) :=
  Cert.LibPlainMatmul.matmul_zero_apply 512 10240 512 none l r a b

/-- Entry (a, b) of the 512×512 by 512×128 product into the zero accumulator. -/
theorem matmul_512_512_128 (l : FVec Ideal S512x512 φ₁) (r : FVec Ideal S512x128 φ₂) (a : Fin 512) (b : Fin 128) :
    matmul dot_S512x512_S512x128_S512x128_1_0_0_1_n_n none l r (constant (F := Ideal) S512x128 .f32 0x00000000#32) (ix2 a b)
      = ∑ k : Fin 512, l (ix2 a k) * r (ix2 k b) :=
  Cert.LibPlainMatmul.matmul_zero_apply 512 512 128 none l r a b

/-! ## The two bodies at an entry -/

/-- The first layer's body at (p, q): the larger of zero and ((A-tile · X) · Wl) + b + (X-rows · Wr). -/
theorem pay0_apply (v0 : Vec Ideal S512x10240 .bf16) (v2 : Vec Ideal S10240x256 .bf16) (v6 : Vec Ideal S256x512 .bf16)
    (v9 : Vec Ideal S1x512 .f32) (v16 : Vec Ideal S512x256 .bf16) (v18 : Vec Ideal S256x512 .bf16) (p : Fin 512) (q : Fin 512) :
    k0_pay1 (F := Ideal) v0 v2 v6 v9 v16 v18 (ix2 p q)
      = max ((∑ k : Fin 256, (∑ s : Fin 10240, v0 (ix2 p s) * v2 (ix2 s k)) * v6 (ix2 k q)) + v9 (ix2 (0 : Fin 1) q)
          + ∑ k : Fin 256, v16 (ix2 p k) * v18 (ix2 k q)) 0 := by
  unfold k0_pay1
  simp only [shapeCast_self]
  rw [truncf_apply, maximumf_apply, addf_apply, addf_apply, broadcast_apply, broadcastTo_1b_ab_apply,
    matmul_512_256_512, matmul_512_256_512]
  simp only [truncf_apply, matmul_512_10240_256]
  rw [Ideal.ofBits_def, Ideal.ofBits_zero_f32]

/-- The second layer's body at (p, q): ((A-tile · H) · Wl) + b + (H-rows · Wr). -/
theorem pay1_apply (v0 : Vec Ideal S512x10240 .bf16) (v2 : Vec Ideal S10240x512 .bf16) (v6 : Vec Ideal S512x128 .bf16)
    (v9 : Vec Ideal S1x128 .f32) (v16 : Vec Ideal S512x512 .bf16) (v18 : Vec Ideal S512x128 .bf16) (p : Fin 512) (q : Fin 128) :
    k1_pay1 (F := Ideal) v0 v2 v6 v9 v16 v18 (ix2 p q)
      = (∑ k : Fin 512, (∑ s : Fin 10240, v0 (ix2 p s) * v2 (ix2 s k)) * v6 (ix2 k q)) + v9 (ix2 (0 : Fin 1) q)
          + ∑ k : Fin 512, v16 (ix2 p k) * v18 (ix2 k q) := by
  unfold k1_pay1
  simp only [shapeCast_self]
  rw [addf_apply, addf_apply, broadcastTo_1b_ab_apply, matmul_512_512_128, matmul_512_512_128]
  simp only [truncf_apply, matmul_512_10240_512]

end Cert.KPayload

end
-- ==== Proof.KRegion0.lean ====
/-
  What the first layer's pipeline leaves in its output table, entry by entry, on the extended reals.

  The grid has 20 points.  At point t the body loads block row t of the edge-count table (512 rows, all 10240
  columns), the whole feature table, the left weights, the bias row, rows 512·t to 512·t + 511 of the feature table
  once more, and the right weights; it stores one 512×512 block, which is written back as block row t of the output
  table.  Nothing is carried from one point to the next.

    * The one store covers the output block, so the block afterwards is the body's value of the loaded blocks.
    * Read at (p, q), with each loaded block read where it sits in its table, that value is the larger of zero and
      the layer's value at row 512·t + p, column q.
    * Row r of the output table lies in block row r / 512, so the 20 write-backs cover the table, and the table ends
      holding, at every (r, q), the larger of zero and the layer's value there.
-/
import proofs.«413754_j79628693668165_3_alg».proof.Proof.Gen.KernelIdeal.Frame
import proofs.«413754_j79628693668165_3_alg».proof.Proof.KPayload
import proofs.«413754_j79628693668165_3_alg».proof.Proof.SageSpec
import Idealize.ShloMosaic.Lib.Pipeline.Value
import Idealize.ShloMosaic.Lib.Tactic

noncomputable section

open scoped BigOperators

namespace Cert.KRegion0

open Idealize.ShloMosaic Idealize.ShloMosaic.TcCoe Idealize.ShloMosaic.ValueIdx Idealize.SL.Sem Cert.KernelIdeal Cert.KernelIdeal.Gen
open Idealize.ShloMosaic.Tactic
open Idealize.ShloMosaic.Pipeline (Dat Cfg Window)

variable (V : (c : Dev nD) → (b : Ref sig .tc) → Buf (Elt Ideal) ((c : Thread nD τ).loc b))

/-- The five tables the pipeline reads, as it finds them: edge counts, features, left weights, bias row, right weights. -/
abbrev arrA (c : Dev nD) : Vec Ideal S10240x10240 .bf16 := V c (Pipeline.arrRef spec0 0)
abbrev arrX (c : Dev nD) : Vec Ideal S10240x256 .bf16 := V c (Pipeline.arrRef spec0 1)
abbrev arrWl (c : Dev nD) : Vec Ideal S256x512 .bf16 := V c (Pipeline.arrRef spec0 2)
abbrev arrB (c : Dev nD) : Vec Ideal S1x512 .f32 := V c (Pipeline.arrRef spec0 3)
abbrev arrWr (c : Dev nD) : Vec Ideal S256x512 .bf16 := V c (Pipeline.arrRef spec0 4)

/-! ## One grid point: the stored block is the body's value of the loaded blocks -/

section Stored
variable {F : FTy → Type} [FloatOps F]

/-- The offset pair (0, 0) is the zero offset on both axes. -/
theorem zero_off : (![0, 0] : Fin 2 → Nat) = fun _ => 0 := funext fun a => by fin_cases a <;> rfl

/-- For any float values: the body's single store covers the whole 512×512 output block, so what the block holds
    afterwards is the body's value of the five blocks it loaded whole and of the 512 feature rows it loaded from
    row offset `k0_off1 i`. -/
theorem stored_block (c : Dev nD) (i : grid0.Coords) (arg1 : Memref sig .tc .vmem S512x10240 .bf16) (harg1 : arg1.IsWhole) (arg2 : Memref sig .tc .vmem S10240x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S256x512 .bf16) (harg5 : arg5.IsWhole) (arg6 : Memref sig .tc .vmem S512x512 .bf16) (harg6 : arg6.IsWhole)
    (x0 : Vec F S512x10240 .bf16) (x1 : Vec F S10240x256 .bf16) (x2 : Vec F S256x512 .bf16) (x3 : Vec F S1x512 .f32) (x4 : Vec F S256x512 .bf16) :
    out0_A_5 c i arg1 harg1 arg2 harg2 arg3 harg3 arg4 harg4 arg5 harg5 arg6 harg6 x0 x1 x2 x3 x4
      = k0_pay1 x0 x1 x2 x3 (View.ld x1 (Rect.unit (s := S10240x256) (k0_off1 i) S512x256.size (k0_off1_inb i))) x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero zero_off]
  simp only [View.readAt_eq_ld, harg1.read_unread, harg2.read_unread, harg3.read_unread, harg4.read_unread, harg5.read_unread,
    View.ld_unit_zero (S := S512x10240) zero_off, View.ld_unit_zero (S := S10240x256) zero_off,
    View.ld_unit_zero (S := S256x512) zero_off, View.ld_unit_zero (S := S1x512) zero_off]

end Stored

/-! ## Where each block sits in its table -/

/-- The block index maps, the row offset of the second feature load and the output block's extents, over the 20 grid
    points: the edge-count block and the output block of point t are block row t, every other window is its whole table. -/
theorem place_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ (grid0.coords t 0).val = t.val ∧ t.val < 20
    ∧ win0_5.xsize (grid0.coords t) (0 : Fin 2) = 512 ∧ win0_5.xsize (grid0.coords t) (1 : Fin 2) = 512 :=
  (by decide +kernel : ∀ t : Fin grid0.N, _)

/-- Entry (p, s) of the edge-count block at point t is entry (512·t + p, s) of the edge-count table. -/
theorem counts_block (c : Dev nD) (t : Fin cfg0.N) (p : Fin 512) (s : Fin 10240) (hr : 512 * t.val + p.val < 10240) :
    (iblk0 V c 0 t : Vec Ideal S512x10240 .bf16) (ix2 p s) = arrA V c (ix2 ⟨512 * t.val + p.val, hr⟩ s) := by
  obtain ⟨e0, e1, -⟩ := place_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 10240 + 1 * s.val = s.val; rw [e1]; omega

/-- At every point the feature window's block is the whole feature table. -/
theorem features_block (c : Dev nD) (t : Fin cfg0.N) : (iblk0 V c 1 t : Vec Ideal S10240x256 .bf16) = arrX V c := by
  obtain ⟨-, -, e0, e1, -⟩ := place_facts t
  funext j
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 10240 + 1 * (j 0).val = (j 0).val; rw [e0]; omega
  | ⟨1, _⟩ => show win0_1.index t (1 : Fin 2) * 256 + 1 * (j 1).val = (j 1).val; rw [e1]; omega

/-- At every point the left-weight window's block is the whole left-weight table. -/
theorem left_block (c : Dev nD) (t : Fin cfg0.N) : (iblk0 V c 2 t : Vec Ideal S256x512 .bf16) = arrWl V c := by
  obtain ⟨-, -, -, -, e0, e1, -⟩ := place_facts t
  funext j
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 256 + 1 * (j 0).val = (j 0).val; rw [e0]; omega
  | ⟨1, _⟩ => show win0_2.index t (1 : Fin 2) * 512 + 1 * (j 1).val = (j 1).val; rw [e1]; omega

/-- At every point the bias window's block is the whole bias row. -/
theorem bias_block (c : Dev nD) (t : Fin cfg0.N) : (iblk0 V c 3 t : Vec Ideal S1x512 .f32) = arrB V c := by
  obtain ⟨-, -, -, -, -, -, e0, e1, -⟩ := place_facts t
  funext j
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 512 + 1 * (j 1).val = (j 1).val; rw [e1]; omega

/-- At every point the right-weight window's block is the whole right-weight table. -/
theorem right_block (c : Dev nD) (t : Fin cfg0.N) : (iblk0 V c 4 t : Vec Ideal S256x512 .bf16) = arrWr V c := by
  obtain ⟨-, -, -, -, -, -, -, -, e0, e1, -⟩ := place_facts t
  funext j
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 256 + 1 * (j 0).val = (j 0).val; rw [e0]; omega
  | ⟨1, _⟩ => show win0_4.index t (1 : Fin 2) * 512 + 1 * (j 1).val = (j 1).val; rw [e1]; omega

/-- 512 rows of a feature table loaded from row offset 512·T, all 256 columns: entry (p, k) of the load is entry
    (512·T + p, k) of the table. -/
theorem rows_load (X : Vec Ideal S10240x256 .bf16) (off : Fin 2 → Nat) (inb : ∀ a, off a + S512x256.size a ≤ S10240x256.size a)
    (T : Nat) (h0 : off 0 = 512 * T) (h1 : off 1 = 0) (p : Fin 512) (k : Fin 256) (hr : 512 * T + p.val < 10240) :
    View.ld X (Rect.unit (s := S10240x256) off S512x256.size inb) (ix2 p k) = X (ix2 ⟨512 * T + p.val, hr⟩ k) := by
  show X _ = X _
  congr 1
  funext a
  apply Fin.ext
  match a with
  | ⟨0, _⟩ => show off 0 + 1 * p.val = 512 * T + p.val; omega
  | ⟨1, _⟩ => show off 1 + 1 * k.val = k.val; omega

/-! ## One grid point, at an entry -/

/-- The body's value at (p, q), for loaded blocks that are these parts of five tables A, X, Wl, b, Wr: row p of the
    edge-count block is row 512·T + p of A, the second feature load starts at row 512·T, the rest are whole tables.
    It is the larger of zero and the layer's value at row 512·T + p, column q. -/
theorem body_entry (A : Vec Ideal S10240x10240 .bf16) (X : Vec Ideal S10240x256 .bf16) (Wl : Vec Ideal S256x512 .bf16)
    (b : Vec Ideal S1x512 .f32) (Wr : Vec Ideal S256x512 .bf16)
    (x0 : Vec Ideal S512x10240 .bf16) (x1 : Vec Ideal S10240x256 .bf16) (x2 : Vec Ideal S256x512 .bf16)
    (x3 : Vec Ideal S1x512 .f32) (x4 : Vec Ideal S256x512 .bf16)
    (off : Fin 2 → Nat) (inb : ∀ a, off a + S512x256.size a ≤ S10240x256.size a)
    (T : Nat) (h0 : off 0 = 512 * T) (h1 : off 1 = 0) (p : Fin 512) (q : Fin 512) (hr : 512 * T + p.val < 10240)
    (hA : ∀ s : Fin 10240, x0 (ix2 p s) = A (ix2 ⟨512 * T + p.val, hr⟩ s))
    (hX : x1 = X) (hWl : x2 = Wl) (hb : x3 = b) (hWr : x4 = Wr) :
    k0_pay1 (F := Ideal) x0 x1 x2 x3 (View.ld x1 (Rect.unit (s := S10240x256) off S512x256.size inb)) x4 (ix2 p q)
      = max (Cert.Sage.tileLayer A X Wl b Wr ⟨512 * T + p.val, hr⟩ q) 0 := by
  subst hX hWl hb hWr
  refine (Cert.KPayload.pay0_apply x0 x1 x2 x3 (View.ld x1 (Rect.unit (s := S10240x256) off S512x256.size inb)) x4 p q).trans ?_
  unfold Cert.Sage.tileLayer
  simp only [hA, rows_load x1 off inb T h0 h1 p _ hr]

/-- After the body at point t, entry (p, q) of the output's block is the larger of zero and the layer's value at row
    512·t + p, column q of the tables. -/
theorem point_entry (c : Dev nD) (t : Fin cfg0.N) (p : Fin 512) (q : Fin 512) (hr : 512 * t.val + p.val < 10240) :
    (outsAt0 V c t : Vec Ideal S512x512 .bf16) (ix2 p q)
      = max (Cert.Sage.tileLayer (arrA V c) (arrX V c) (arrWl V c) (arrB V c) (arrWr V c) ⟨512 * t.val + p.val, hr⟩ q) 0 := by
  obtain ⟨-, -, -, -, -, -, -, -, -, -, -, -, ec, -⟩ := place_facts t
  have h0 : k0_off1 (grid0.coords t) 0 = 512 * t.val := by
    rw [k0_off1_eq]; show 512 * (grid0.coords t 0).val = 512 * t.val; rw [ec]
  have h1 : k0_off1 (grid0.coords t) 1 = 0 := by rw [k0_off1_eq]; rfl
  unfold outsAt0
  refine (congrFun (stored_block (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t)
    (iblk0 V c 0 t) (iblk0 V c 1 t) (iblk0 V c 2 t) (iblk0 V c 3 t) (iblk0 V c 4 t)) (ix2 p q)).trans ?_
  exact body_entry (arrA V c) (arrX V c) (arrWl V c) (arrB V c) (arrWr V c)
    (iblk0 V c 0 t) (iblk0 V c 1 t) (iblk0 V c 2 t) (iblk0 V c 3 t) (iblk0 V c 4 t)
    (k0_off1 (grid0.coords t)) (k0_off1_inb (grid0.coords t)) t.val h0 h1 p q hr
    (fun s => counts_block V c t p s hr) (features_block V c t) (left_block V c t) (bias_block V c t) (right_block V c t)

/-! ## From the blocks to the table -/

/-- The table the pipeline is to leave: at (r, q) the larger of zero and the layer's value there. -/
abbrev hiddenTable (c : Dev nD) : Vec Ideal S10240x512 .bf16 := fun i =>
  max (Cert.Sage.tileLayer (arrA V c) (arrX V c) (arrWl V c) (arrB V c) (arrWr V c) ⟨(i 0).val, idx2_lt0 i⟩ ⟨(i 1).val, idx2_lt1 i⟩) 0

/-- That table at an index whose coordinates are r and q. -/
theorem hiddenTable_at (c : Dev nD) (i : S10240x512.Idx) (r : Fin 10240) (q : Fin 512) (h0 : (i 0).val = r.val)
    (h1 : (i 1).val = q.val) :
    hiddenTable V c i = max (Cert.Sage.tileLayer (arrA V c) (arrX V c) (arrWl V c) (arrB V c) (arrWr V c) r q) 0 := by
  have e : i = ix2 r q := by
    funext a
    match a with
    | ⟨0, _⟩ => exact Fin.ext h0
    | ⟨1, _⟩ => exact Fin.ext h1
  subst e
  rfl

/-- What point t writes back is block row t of that table. -/
theorem written_back (c : Dev nD) (t : Fin cfg0.N) :
    (dat0 V c).flushed 5 t = ((cfg0.win 5).blk t).view.read (Elt Ideal) (hiddenTable V c) := by
  obtain ⟨-, -, -, -, -, -, -, -, -, -, e0, e1, -, ht, s0, s1⟩ := place_facts t
  show (cfg0.win 5).cut (grid0.coords t) ((dat0 V c).after 5 t) = _
  rw [after0_5]
  funext y
  rw [View.read_apply]
  have hp : (y 0).val < 512 := lt_of_lt_of_eq (show (y 0).val < win0_5.xsize (grid0.coords t) (0 : Fin 2) from (y 0).isLt) s0
  have hq : (y 1).val < 512 := lt_of_lt_of_eq (show (y 1).val < win0_5.xsize (grid0.coords t) (1 : Fin 2) from (y 1).isLt) s1
  have hr : 512 * t.val + (y 0).val < 10240 := by omega
  have hL : (cfg0.win 5).cut (grid0.coords t) (outsAt0 V c t) y
      = (outsAt0 V c t : Vec Ideal S512x512 .bf16) (ix2 (⟨(y 0).val, hp⟩ : Fin 512) (⟨(y 1).val, hq⟩ : Fin 512)) := by
    show outsAt0 V c t _ = outsAt0 V c t _
    congr 1
    funext a
    match a with
    | ⟨0, _⟩ => rfl
    | ⟨1, _⟩ => rfl
  refine hL.trans ((point_entry V c t ⟨(y 0).val, hp⟩ ⟨(y 1).val, hq⟩ hr).trans ?_)
  refine (hiddenTable_at V c (((cfg0.win 5).blk t).view.emb y) ⟨512 * t.val + (y 0).val, hr⟩ ⟨(y 1).val, hq⟩ ?_ ?_).symm
  · show win0_5.index t (0 : Fin 2) * 512 + 1 * (y 0).val = 512 * t.val + (y 0).val; rw [e0]; omega
  · show win0_5.index t (1 : Fin 2) * 512 + 1 * (y 1).val = (y 1).val; rw [e1]; omega

/-- An index of the table lies in point t's block exactly when each coordinate lies in the block's range on its axis. -/
theorem mem_block (t : Fin cfg0.N) (i : S10240x512.Idx) :
    i ∈ ((cfg0.win 5).blk t).view.set ↔ ∀ a : Fin 2, win0_5.index t a * S512x512.size a ≤ (i a).val
      ∧ (i a).val < win0_5.index t a * S512x512.size a + win0_5.xsize (grid0.coords t) a := by
  show i ∈ ((View.whole main_v41).slice (win0_5.rect t)).set ↔ _
  rw [View.set_slice_whole, Rect.mem_set_unit]
  exact Iff.rfl

/-- Every index of the table is in some point's block: row r is in block row r / 512. -/
theorem covered (i : S10240x512.Idx) :
    ∃ t : Fin cfg0.N, (cfg0.win 5).flush t = true ∧ i ∈ ((cfg0.win 5).blk t).view.set := by
  have hi0 : (i 0).val < 10240 := idx2_lt0 i
  have hi1 : (i 1).val < 512 := idx2_lt1 i
  have hN : cfg0.N = 20 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1, -, -, s0, s1⟩ := place_facts t
  refine ⟨t, flush0_5 t, ?_⟩
  rw [mem_block]
  intro a
  match a with
  | ⟨0, _⟩ =>
    show win0_5.index t (0 : Fin 2) * 512 ≤ (i 0).val ∧ (i 0).val < win0_5.index t (0 : Fin 2) * 512 + win0_5.xsize (grid0.coords t) (0 : Fin 2)
    rw [e0, s0]; omega
  | ⟨1, _⟩ =>
    show win0_5.index t (1 : Fin 2) * 512 ≤ (i 1).val ∧ (i 1).val < win0_5.index t (1 : Fin 2) * 512 + win0_5.xsize (grid0.coords t) (1 : Fin 2)
    rw [e1, s1]; omega

/-- So after the last grid point the output table is that table. -/
theorem region0_table (c : Dev nD) : (dat0 (F := Ideal) V c).arrAt 5 cfg0.N = hiddenTable V c :=
  (dat0 (F := Ideal) V c).arrAt_eq_of_cover 5 (hiddenTable V c) (fun t _ => written_back V c t) covered

/-- After the last grid point the output table holds, at (r, q), the larger of zero and the layer's value there. -/
theorem region0_entry (c : Dev nD) (r : Fin 10240) (q : Fin 512) :
    ((dat0 (F := Ideal) V c).arrAt 5 cfg0.N : Vec Ideal S10240x512 .bf16) (ix2 r q)
      = max (Cert.Sage.tileLayer (arrA V c) (arrX V c) (arrWl V c) (arrB V c) (arrWr V c) r q) 0 := by
  rw [region0_table]

end Cert.KRegion0

end
-- ==== Proof.KRegion1.lean ====
/-
  What the second layer's pipeline leaves in its output table, entry by entry.

  The pipeline walks the 10240 rows of the padded node table in 20 tiles of 512 rows.  At tile t it holds rows
  [512·t, 512·t + 512) of the table of edge counts A, the whole feature table X, the two weight tables Wl, Wr and the
  bias row b, and it reads rows [512·t, 512·t + 512) of X a second time as the tile's own rows.  Its body stores, at
  (p, q) of the tile,

      ∑ₖ (∑ₛ A(512·t + p, s) · X(s, k)) · Wl(k, q)  +  b(0, q)  +  ∑ₖ X(512·t + p, k) · Wr(k, q),

  which is the layer's value at row r = 512·t + p of the padded table.  The tile is written back to rows
  [512·t, 512·t + 512) of the output, all 128 columns; the 20 tiles cover every row (row r lies in tile r / 512), so
  after the last tile the output table holds the layer's value at every entry.
-/
import proofs.«413754_j79628693668165_3_alg».proof.Proof.Gen.KernelIdeal.Frame
import proofs.«413754_j79628693668165_3_alg».proof.Proof.KPayload
import proofs.«413754_j79628693668165_3_alg».proof.Proof.SageSpec

noncomputable section

open scoped BigOperators

namespace Cert.KRegion1

open Idealize.ShloMosaic Idealize.ShloMosaic.TcCoe Idealize.ShloMosaic.ValueIdx Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The five tables the pipeline reads, as it finds them: edge counts, features, left weights, bias row, right weights. -/
abbrev arrA (c : Dev nD) : Vec Ideal S10240x10240 .bf16 := V c (Pipeline.arrRef spec1 0)
abbrev arrX (c : Dev nD) : Vec Ideal S10240x512 .bf16 := V c (Pipeline.arrRef spec1 1)
abbrev arrWl (c : Dev nD) : Vec Ideal S512x128 .bf16 := V c (Pipeline.arrRef spec1 2)
abbrev arrB (c : Dev nD) : Vec Ideal S1x128 .f32 := V c (Pipeline.arrRef spec1 3)
abbrev arrWr (c : Dev nD) : Vec Ideal S512x128 .bf16 := V c (Pipeline.arrRef spec1 4)

/-! ## One tile's body, for any float values -/

section Body

variable {F : FTy → Type} [FloatOps F]

/-- The offset (0, 0) is zero on both axes. -/
theorem zeros2 : (![0, 0] : Fin 2 → Nat) = fun _ => 0 := funext fun a => by fin_cases a <;> rfl

/-- The 512 rows of a feature table that the tile at grid coordinate `i` reads as its own: rows
    [512·i, 512·i + 512), all 512 columns. -/
abbrev rowTile (i : grid1.Coords) (x1 : Vec F S10240x512 .bf16) : Vec F S512x512 .bf16 :=
  View.ld x1 (Rect.unit (s := S10240x512) (k1_off1 i) S512x512.size (k1_off1_inb i))

/-- What the body leaves in the output tile: its one store covers the tile, and the stored value is the body's
    arithmetic of the five blocks it holds, the feature table entering twice, whole and through its row tile. -/
theorem body_value (c : Dev nD) (i : grid1.Coords)
    (arg1 : Memref sig .tc .vmem S512x10240 .bf16) (harg1 : arg1.IsWhole)
    (arg2 : Memref sig .tc .vmem S10240x512 .bf16) (harg2 : arg2.IsWhole)
    (arg3 : Memref sig .tc .vmem S512x128 .bf16) (harg3 : arg3.IsWhole)
    (arg4 : Memref sig .tc .vmem S1x128 .f32) (harg4 : arg4.IsWhole)
    (arg5 : Memref sig .tc .vmem S512x128 .bf16) (harg5 : arg5.IsWhole)
    (arg6 : Memref sig .tc .vmem S512x128 .f32) (harg6 : arg6.IsWhole)
    (x0 : Vec F S512x10240 .bf16) (x1 : Vec F S10240x512 .bf16) (x2 : Vec F S512x128 .bf16) (x3 : Vec F S1x128 .f32)
    (x4 : Vec F S512x128 .bf16) :
    out1_A_5 (F := F) c i arg1 harg1 arg2 harg2 arg3 harg3 arg4 harg4 arg5 harg5 arg6 harg6 x0 x1 x2 x3 x4
      = k1_pay1 x0 x1 x2 x3 (rowTile i x1) x4 := by
  unfold out1_A_5
  rw [View.read_writes_eq_canon _ _ _
    (cover1_A_5 c i arg1 harg1 arg2 harg2 arg3 harg3 arg4 harg4 arg5 harg5 arg6 harg6 x0 x1 x2 x3 x4)]
  unfold kernelRun1_A
  dsimp only
  sl_unfold_words
  rw [View.canon_unit_zero zeros2]
  simp only [View.readAt_eq_ld, harg1.read_unread, harg2.read_unread, harg3.read_unread, harg4.read_unread,
    harg5.read_unread, View.ld_unit_zero (S := S512x10240) zeros2, View.ld_unit_zero (S := S10240x512) zeros2,
    View.ld_unit_zero (S := S512x128) zeros2, View.ld_unit_zero (S := S1x128) zeros2]
  rfl

/-- Entry (p, k) of the row tile at grid coordinate `i` is entry (512·i + p, k) of the table. -/
theorem rowTile_apply (i : grid1.Coords) (x1 : Vec F S10240x512 .bf16) (p : Fin 512) (k : Fin 512) (r : Fin 10240)
    (hr : r.val = 512 * (i 0).val + p.val) :
    rowTile i x1 (ix2 p k) = x1 (ix2 r k) := by
  show x1 _ = x1 _
  congr 1
  funext a
  apply Fin.ext
  match a with
  | ⟨0, _⟩ =>
    show k1_off1 i (0 : Fin 2) + 1 * p.val = r.val
    rw [k1_off1_eq i]
    show 512 * (i 0).val + 1 * p.val = r.val
    omega
  | ⟨1, _⟩ =>
    show k1_off1 i (1 : Fin 2) + 1 * k.val = k.val
    rw [k1_off1_eq i]
    show 0 + 1 * k.val = k.val
    omega

end Body

/-! ## Where each block sits in its table -/

/-- The block indices at tile `t`: the count table and the output move down one block of rows per tile, the other
    four tables stay at block (0, 0); and the grid's one coordinate at tile `t` is `t`. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ (grid1.coords t (0 : Fin 1)).val = t.val :=
  (by decide +kernel : ∀ t : Fin grid1.N, _)

/-- Entry (p, s) of tile `t`'s block of the count table is entry (512·t + p, s) of the table. -/
theorem countTile_apply (c : Dev nD) (t : Fin cfg1.N) (p : Fin 512) (s : Fin 10240) (r : Fin 10240)
    (hr : r.val = 512 * t.val + p.val) :
    (iblk1 (F := Ideal) V c 0 t : Vec Ideal S512x10240 .bf16) (ix2 p s) = arrA V c (ix2 r s) := by
  obtain ⟨e0, e1, -⟩ := index_maps t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 512 + 1 * p.val = r.val; omega
  | ⟨1, _⟩ => show win1_0.index t (1 : Fin 2) * 10240 + 1 * s.val = s.val; omega

/-- The feature table's block is the whole table at every tile. -/
theorem features_apply (c : Dev nD) (t : Fin cfg1.N) (s : Fin 10240) (k : Fin 512) :
    (iblk1 (F := Ideal) V c 1 t : Vec Ideal S10240x512 .bf16) (ix2 s k) = arrX V c (ix2 s k) := by
  obtain ⟨-, -, e0, e1, -⟩ := index_maps t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 10240 + 1 * s.val = s.val; omega
  | ⟨1, _⟩ => show win1_1.index t (1 : Fin 2) * 512 + 1 * k.val = k.val; omega

/-- The left weights' block is the whole table at every tile. -/
theorem leftWeights_apply (c : Dev nD) (t : Fin cfg1.N) (k : Fin 512) (q : Fin 128) :
    (iblk1 (F := Ideal) V c 2 t : Vec Ideal S512x128 .bf16) (ix2 k q) = arrWl V c (ix2 k q) := by
  obtain ⟨-, -, -, -, e0, e1, -⟩ := index_maps t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 512 + 1 * k.val = k.val; omega
  | ⟨1, _⟩ => show win1_2.index t (1 : Fin 2) * 128 + 1 * q.val = q.val; omega

/-- The bias row's block is the whole row at every tile. -/
theorem bias_apply (c : Dev nD) (t : Fin cfg1.N) (z : Fin 1) (q : Fin 128) :
    (iblk1 (F := Ideal) V c 3 t : Vec Ideal S1x128 .f32) (ix2 z q) = arrB V c (ix2 z q) := by
  obtain ⟨-, -, -, -, -, -, e0, e1, -⟩ := index_maps t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * z.val = z.val; omega
  | ⟨1, _⟩ => show win1_3.index t (1 : Fin 2) * 128 + 1 * q.val = q.val; omega

/-- The right weights' block is the whole table at every tile. -/
theorem rightWeights_apply (c : Dev nD) (t : Fin cfg1.N) (k : Fin 512) (q : Fin 128) :
    (iblk1 (F := Ideal) V c 4 t : Vec Ideal S512x128 .bf16) (ix2 k q) = arrWr V c (ix2 k q) := by
  obtain ⟨-, -, -, -, -, -, -, -, e0, e1, -⟩ := index_maps t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 512 + 1 * k.val = k.val; omega
  | ⟨1, _⟩ => show win1_4.index t (1 : Fin 2) * 128 + 1 * q.val = q.val; omega

/-! ## One tile's result is the layer on the tile's rows -/

/-- Entry (p, q) of what tile `t` leaves is the layer's value at row r = 512·t + p, column q: the body's three
    sums, each factor read in its table. -/
theorem tile_entry (c : Dev nD) (t : Fin cfg1.N) (p : Fin 512) (q : Fin 128) (r : Fin 10240)
    (hr : r.val = 512 * t.val + p.val) :
    outsAt1 (F := Ideal) V c t (ix2 p q)
      = Cert.Sage.tileLayer (arrA V c) (arrX V c) (arrWl V c) (arrB V c) (arrWr V c) r q := by
  obtain ⟨-, -, -, -, -, -, -, -, -, -, -, -, eg⟩ := index_maps t
  unfold outsAt1
  refine (congrFun (body_value (F := Ideal) c (grid1.coords t) (ms1_0 t) (hs1_0 t) (ms1_1 t) (hs1_1 t) (ms1_2 t) (hs1_2 t)
    (ms1_3 t) (hs1_3 t) (ms1_4 t) (hs1_4 t) (ms1_5 t) (hs1_5 t)
    (iblk1 V c 0 t) (iblk1 V c 1 t) (iblk1 V c 2 t) (iblk1 V c 3 t) (iblk1 V c 4 t)) (ix2 p q)).trans ?_
  refine (Cert.KPayload.pay1_apply (iblk1 V c 0 t) (iblk1 V c 1 t) (iblk1 V c 2 t) (iblk1 V c 3 t)
    (rowTile (grid1.coords t) (iblk1 V c 1 t)) (iblk1 V c 4 t) p q).trans ?_
  unfold Cert.Sage.tileLayer
  have hR : ∀ k : Fin 512,
      rowTile (grid1.coords t) (iblk1 (F := Ideal) V c 1 t) (ix2 p k) = arrX V c (ix2 r k) := fun k =>
    (rowTile_apply (grid1.coords t) (iblk1 (F := Ideal) V c 1 t) p k r (by rw [eg]; exact hr)).trans
      (features_apply V c t r k)
  exact congrArg₂ (· + ·)
    (congrArg₂ (· + ·)
      (Finset.sum_congr rfl fun k _ => congrArg₂ (· * ·)
        (Finset.sum_congr rfl fun s _ => congrArg₂ (· * ·) (countTile_apply V c t p s r hr) (features_apply V c t s k))
        (leftWeights_apply V c t k q))
      (bias_apply V c t 0 q))
    (Finset.sum_congr rfl fun k _ => congrArg₂ (· * ·) (hR k) (rightWeights_apply V c t k q))

/-- The same at an index `j` of the tile, with the row and column of the table named by their values. -/
theorem tile_entry_idx (c : Dev nD) (t : Fin cfg1.N) (j : S512x128.Idx) (r : Fin 10240) (q : Fin 128)
    (hr : r.val = 512 * t.val + (j 0).val) (hq : q.val = (j 1).val) :
    outsAt1 (F := Ideal) V c t j
      = Cert.Sage.tileLayer (arrA V c) (arrX V c) (arrWl V c) (arrB V c) (arrWr V c) r q := by
  obtain ⟨p, q', rfl⟩ : ∃ (p : Fin 512) (q' : Fin 128), j = ix2 p q' := ⟨j 0, j 1, eq_ix2 j⟩
  obtain rfl : q = q' := Fin.ext hq
  exact tile_entry V c t p q r hr

/-! ## From tiles to the table -/

/-- The layer's value at every entry of the padded output table. -/
abbrev layerTable (c : Dev nD) : Vec Ideal S10240x128 .f32 := fun i =>
  Cert.Sage.tileLayer (arrA V c) (arrX V c) (arrWl V c) (arrB V c) (arrWr V c)
    ⟨(i 0).val, idx2_lt0 i⟩ ⟨(i 1).val, idx2_lt1 i⟩

/-- What tile `t` writes back is its block of the layer's table: rows [512·t, 512·t + 512), all columns. -/
theorem writeback_eq (c : Dev nD) (t : Fin cfg1.N) :
    (dat1 (F := Ideal) V c).flushed 5 t = ((cfg1.win 5).blk t).view.read (Elt Ideal) (layerTable V c) := by
  obtain ⟨-, -, -, -, -, -, -, -, -, -, e0, e1, -⟩ := index_maps t
  show (cfg1.win 5).cut (grid1.coords t) ((dat1 V c).after 5 t) = _
  rw [after1_5]
  funext j
  rw [View.read_apply]
  refine tile_entry_idx V c t j _ _ ?_ ?_
  · show win1_5.index t (0 : Fin 2) * 512 + 1 * (j 0).val = 512 * t.val + (j 0).val
    omega
  · show win1_5.index t (1 : Fin 2) * 128 + 1 * (j 1).val = (j 1).val
    omega

/-- Every entry of the output table lies in the block some tile writes back: row r in tile r / 512. -/
theorem rows_covered (i : S10240x128.Idx) :
    ∃ t : Fin cfg1.N, (cfg1.win 5).flush t = true ∧ i ∈ ((cfg1.win 5).blk t).view.set := by
  have h0 : (i 0).val < 10240 := idx2_lt0 i
  have h1 : (i 1).val < 128 := idx2_lt1 i
  have hN : cfg1.N = 20 := N_1
  have ht : (i 0).val / 512 < cfg1.N := by rw [hN]; omega
  obtain ⟨-, -, -, -, -, -, -, -, -, -, e0, e1, -⟩ := index_maps ⟨(i 0).val / 512, ht⟩
  refine ⟨⟨(i 0).val / 512, ht⟩, flush1_5 _, ?_⟩
  show i ∈ ((View.whole main_v42).slice (win1_5.rect ⟨(i 0).val / 512, ht⟩)).set
  rw [View.set_slice_whole, Rect.mem_set_unit]
  intro a
  match a with
  | ⟨0, _⟩ =>
    show win1_5.index ⟨(i 0).val / 512, ht⟩ (0 : Fin 2) * 512 ≤ (i 0).val
      ∧ (i 0).val < win1_5.index ⟨(i 0).val / 512, ht⟩ (0 : Fin 2) * 512 + 512
    rw [e0]; dsimp only; omega
  | ⟨1, _⟩ =>
    show win1_5.index ⟨(i 0).val / 512, ht⟩ (1 : Fin 2) * 128 ≤ (i 1).val
      ∧ (i 1).val < win1_5.index ⟨(i 0).val / 512, ht⟩ (1 : Fin 2) * 128 + 128
    rw [e1]; omega

/-- After the last tile the output table is the layer's table. -/
theorem region1_table (c : Dev nD) : (dat1 (F := Ideal) V c).arrAt 5 cfg1.N = layerTable V c :=
  (dat1 (F := Ideal) V c).arrAt_eq_of_cover 5 (layerTable V c) (fun t _ => writeback_eq V c t) rows_covered

/-- After the last grid point the output table holds, at (r, q), the layer's value there. -/
theorem region1_entry (c : Dev nD) (r : Fin 10240) (q : Fin 128) :
    ((dat1 (F := Ideal) V c).arrAt 5 cfg1.N : Vec Ideal S10240x128 .f32) (ix2 r q)
      = Cert.Sage.tileLayer (arrA V c) (arrX V c) (arrWl V c) (arrB V c) (arrWr V c) r q :=
  congrFun (region1_table V c) (ix2 r q)

end Cert.KRegion1

end
-- ==== Proof.LibCountScatter.lean ====
/-
  Counting with an integer scatter-add.

  A scatter that adds the word 1 once for every update, starting from an array of zero words, leaves at each
  array entry the number of updates that land there (as a 32-bit word). For the scatter of E single entries into
  an array [A, B], the k-th entry sent to the (row, column) that row k of an [E, 2] table of signed words names,
  an update lands on (a, b) exactly when its table row reads (a, b); so the entry at (a, b), read as a signed
  integer, is the number of table rows that read (a, b), as long as E is below 2 ^ 31.
-/
import Idealize.ShloMosaic.PureOps.ShapeOps
import Idealize.ShloMosaic.Lib.ValueIdx
import Mathlib.Data.Fintype.Card
import Mathlib.Data.Fintype.BigOperators

noncomputable section

namespace Cert.LibCountScatter

open Idealize.ShloMosaic Idealize.ShloMosaic.ValueIdx

/-- The dimension numbers of a scatter of E single entries into an array [A, B], the k-th entry sent to the
    (row, column) that row k of an [E, 2] table names: no window axes, both array axes inserted, the index vector
    along axis 1. -/
abbrev pointDims (A B E : Nat) (wf : ScatterDims.WF ⟨2, ![A, B]⟩ ⟨2, ![E, 2]⟩ ⟨1, ![E]⟩ [] [0, 1] [0, 1] 1) :
    ScatterDims ⟨2, ![A, B]⟩ ⟨2, ![E, 2]⟩ ⟨1, ![E]⟩ where
  updateWindowDims := []
  insertedWindowDims := [0, 1]
  scatterDimsToOperandDims := [0, 1]
  indexVectorDim := 1
  wf := wf

/-- Both array axes are inserted, so no axis carries a window coordinate. -/
private theorem point_window {A B E : Nat} (wf : ScatterDims.WF ⟨2, ![A, B]⟩ ⟨2, ![E, 2]⟩ ⟨1, ![E]⟩ [] [0, 1] [0, 1] 1)
    (j : (⟨1, ![E]⟩ : Shape).Idx) (a : Fin 2) : (pointDims A B E wf).window j a = 0 := by
  unfold ScatterDims.window
  rw [dif_neg]
  intro hk
  fin_cases a <;> simp [ScatterDims.sKept, Shape.kept, List.mem_filter] at hk

/-- The start on array axis 0 is the first word of the entry's table row, read signed. -/
private theorem point_start0 {A B E w : Nat} (wf : ScatterDims.WF ⟨2, ![A, B]⟩ ⟨2, ![E, 2]⟩ ⟨1, ![E]⟩ [] [0, 1] [0, 1] 1)
    (idx : IVec ⟨2, ![E, 2]⟩ w) (e : Fin E) :
    (pointDims A B E wf).start (ix1 e) idx 0 = (idx (ix2 e (0 : Fin 2))).toInt := by
  have hmem : (0 : Fin 2) ∈ (pointDims A B E wf).scatterDimsToOperandDims := by
    show (0 : Fin 2) ∈ [0, 1]
    simp
  unfold ScatterDims.start
  rw [dif_pos hmem]
  have hsi : (pointDims A B E wf).siIdx (ix1 e)
      ⟨List.idxOf (0 : Fin 2) (pointDims A B E wf).scatterDimsToOperandDims, List.idxOf_lt_length_iff.2 hmem⟩
        = ix2 e (0 : Fin 2) := by
    funext c; refine Fin.ext ?_
    match c with
    | ⟨0, _⟩ => rfl
    | ⟨1, _⟩ => rfl
  rw [hsi]

/-- The start on array axis 1 is the second word of the entry's table row, read signed. -/
private theorem point_start1 {A B E w : Nat} (wf : ScatterDims.WF ⟨2, ![A, B]⟩ ⟨2, ![E, 2]⟩ ⟨1, ![E]⟩ [] [0, 1] [0, 1] 1)
    (idx : IVec ⟨2, ![E, 2]⟩ w) (e : Fin E) :
    (pointDims A B E wf).start (ix1 e) idx 1 = (idx (ix2 e (1 : Fin 2))).toInt := by
  have hmem : (1 : Fin 2) ∈ (pointDims A B E wf).scatterDimsToOperandDims := by
    show (1 : Fin 2) ∈ [0, 1]
    simp
  unfold ScatterDims.start
  rw [dif_pos hmem]
  have hsi : (pointDims A B E wf).siIdx (ix1 e)
      ⟨List.idxOf (1 : Fin 2) (pointDims A B E wf).scatterDimsToOperandDims, List.idxOf_lt_length_iff.2 hmem⟩
        = ix2 e (1 : Fin 2) := by
    funext c; refine Fin.ext ?_
    match c with
    | ⟨0, _⟩ => rfl
    | ⟨1, _⟩ => rfl
  rw [hsi]

/-- Update e lands on entry (a, b) exactly when row e of the table reads (a, b) as signed integers. -/
theorem point_resultIdx_iff {A B E w : Nat} (wf : ScatterDims.WF ⟨2, ![A, B]⟩ ⟨2, ![E, 2]⟩ ⟨1, ![E]⟩ [] [0, 1] [0, 1] 1)
    (idx : IVec ⟨2, ![E, 2]⟩ w) (e : Fin E) (a : Fin A) (b : Fin B) :
    (pointDims A B E wf).resultIdx? (ix1 e) idx = some (ix2 a b)
      ↔ (idx (ix2 e (0 : Fin 2))).toInt = (a.val : ℤ) ∧ (idx (ix2 e (1 : Fin 2))).toInt = (b.val : ℤ) := by
  have hw := point_window wf (ix1 e)
  have hs0 := point_start0 wf idx e
  have hs1 := point_start1 wf idx e
  unfold ScatterDims.resultIdx?
  constructor
  · intro h
    split at h
    · rename_i hall
      have hi := Option.some.inj h
      -- the landing point's two coordinates are a and b
      have v0 : ((pointDims A B E wf).start (ix1 e) idx 0 + (pointDims A B E wf).window (ix1 e) 0).toNat = a.val :=
        congrArg Fin.val (congrFun hi 0)
      have v1 : ((pointDims A B E wf).start (ix1 e) idx 1 + (pointDims A B E wf).window (ix1 e) 1).toNat = b.val :=
        congrArg Fin.val (congrFun hi 1)
      have h0 := (hall 0).1
      have h1 := (hall 1).1
      rw [hw 0, hs0] at h0 v0
      rw [hw 1, hs1] at h1 v1
      constructor <;> omega
    · exact absurd h (by simp)
  · rintro ⟨h0, h1⟩
    have hall : ∀ a', 0 ≤ (pointDims A B E wf).start (ix1 e) idx a' + (pointDims A B E wf).window (ix1 e) a'
        ∧ (pointDims A B E wf).start (ix1 e) idx a' + (pointDims A B E wf).window (ix1 e) a'
          < (⟨2, ![A, B]⟩ : Shape).size a' := by
      intro a'
      match a' with
      | ⟨0, _⟩ =>
        show 0 ≤ (pointDims A B E wf).start (ix1 e) idx 0 + (pointDims A B E wf).window (ix1 e) 0
          ∧ (pointDims A B E wf).start (ix1 e) idx 0 + (pointDims A B E wf).window (ix1 e) 0 < (A : ℤ)
        rw [hw 0, hs0, h0]
        have := a.isLt
        omega
      | ⟨1, _⟩ =>
        show 0 ≤ (pointDims A B E wf).start (ix1 e) idx 1 + (pointDims A B E wf).window (ix1 e) 1
          ∧ (pointDims A B E wf).start (ix1 e) idx 1 + (pointDims A B E wf).window (ix1 e) 1 < (B : ℤ)
        rw [hw 1, hs1, h1]
        have := b.isLt
        omega
    rw [dif_pos hall]
    congr 1
    funext a'
    refine Fin.ext ?_
    match a' with
    | ⟨0, _⟩ =>
      show ((pointDims A B E wf).start (ix1 e) idx 0 + (pointDims A B E wf).window (ix1 e) 0).toNat = a.val
      rw [hw 0, hs0, h0]
      omega
    | ⟨1, _⟩ =>
      show ((pointDims A B E wf).start (ix1 e) idx 1 + (pointDims A B E wf).window (ix1 e) 1).toNat = b.val
      rw [hw 1, hs1, h1]
      omega

/-- The scatter's fold over any list of update numbers, read at entry i: the starting word plus the number of
    listed updates that land on i. -/
private theorem fold_count {s si u : Shape} {w : Nat} (d : ScatterDims s si u) (idx : IVec si w)
    (upd : u.Idx → BitVec 32) (hu : ∀ j, upd j = 1#32) (i : s.Idx) (L : List (Fin u.numel)) :
    ∀ r : s.Idx → BitVec 32,
      (L.foldl (fun r n =>
        match d.resultIdx? (u.rowMajor.symm n) idx with
        | some i0 => fun i' => if i' = i0 then IntOp.addi (r i0) (upd (u.rowMajor.symm n)) else r i'
        | none => r) r) i
      = r i + BitVec.ofNat 32 (L.countP (fun n => decide (d.resultIdx? (u.rowMajor.symm n) idx = some i))) := by
  induction L with
  | nil => intro r; simp
  | cons n L ih =>
    intro r
    rw [List.foldl_cons, ih, List.countP_cons]
    cases hres : d.resultIdx? (u.rowMajor.symm n) idx with
    | none => simp
    | some i0 =>
      by_cases hi : i = i0
      · subst hi
        simp only [if_pos rfl, decide_true, hu, IntOp.addi, if_true]
        rw [Nat.add_comm, BitVec.ofNat_add, BitVec.add_assoc]
      · have hne : ¬ (some i0 = some i) := fun h => hi (Option.some.inj h).symm
        simp [hi, hne]

/-- Adding ones from zero counts the updates that land on an entry. -/
theorem scatter_addi_ones {s si u : Shape} {w : Nat} (d : ScatterDims s si u) (x : s.Idx → BitVec 32) (idx : IVec si w)
    (upd : u.Idx → BitVec 32) (hx : ∀ i, x i = 0#32) (hu : ∀ j, upd j = 1#32) (i : s.Idx) :
    Host.scatter d IntOp.addi x idx upd i
      = BitVec.ofNat 32 (Finset.univ.filter (fun j : u.Idx => d.resultIdx? j idx = some i)).card := by
  refine (fold_count d idx upd hu i (List.finRange u.numel) x).trans ?_
  rw [hx i, BitVec.zero_add]
  congr 1
  rw [List.countP_eq_length_filter]
  have hcard : ((List.finRange u.numel).filter
        (fun n => decide (d.resultIdx? (u.rowMajor.symm n) idx = some i))).length
      = (Finset.univ.filter (fun n : Fin u.numel => d.resultIdx? (u.rowMajor.symm n) idx = some i)).card := by
    rw [← List.toFinset_card_of_nodup ((List.nodup_finRange _).filter _)]
    congr 1
    ext n
    simp
  rw [hcard]
  exact Finset.card_equiv u.rowMajor.symm (by intro n; simp)

/-- A rank-1 index is its one coordinate. -/
private def idx1Equiv {n : Nat} : Fin n ≃ (⟨1, ![n]⟩ : Shape).Idx where
  toFun e := ix1 e
  invFun j := j 0
  left_inv _ := rfl
  right_inv j := (eq_ix1 j).symm

/-- The entry of the count table, as an integer: the number of table rows that read (a, b). -/
theorem count_entry {A B E w : Nat} (wf : ScatterDims.WF ⟨2, ![A, B]⟩ ⟨2, ![E, 2]⟩ ⟨1, ![E]⟩ [] [0, 1] [0, 1] 1)
    (hE : E < 2 ^ 31) (x : (⟨2, ![A, B]⟩ : Shape).Idx → BitVec 32) (idx : IVec ⟨2, ![E, 2]⟩ w)
    (upd : (⟨1, ![E]⟩ : Shape).Idx → BitVec 32) (hx : ∀ i, x i = 0#32) (hu : ∀ j, upd j = 1#32) (a : Fin A) (b : Fin B) :
    (Host.scatter (pointDims A B E wf) IntOp.addi x idx upd (ix2 a b)).toInt
      = ((Finset.univ.filter (fun e : Fin E => (idx (ix2 e (0 : Fin 2))).toInt = (a.val : ℤ)
          ∧ (idx (ix2 e (1 : Fin 2))).toInt = (b.val : ℤ))).card : ℤ) := by
  rw [scatter_addi_ones (pointDims A B E wf) x idx upd hx hu (ix2 a b)]
  -- the updates that land on (a, b) are the table rows that read (a, b)
  have hcard : (Finset.univ.filter (fun j : (⟨1, ![E]⟩ : Shape).Idx =>
        (pointDims A B E wf).resultIdx? j idx = some (ix2 a b))).card
      = (Finset.univ.filter (fun e : Fin E => (idx (ix2 e (0 : Fin 2))).toInt = (a.val : ℤ)
          ∧ (idx (ix2 e (1 : Fin 2))).toInt = (b.val : ℤ))).card := by
    symm
    refine Finset.card_equiv idx1Equiv ?_
    intro e
    simp only [Finset.mem_filter, Finset.mem_univ, true_and]
    exact (point_resultIdx_iff wf idx e a b).symm
  rw [hcard]
  -- there are at most E of them, fewer than 2 ^ 31: the word reads its own number
  have hle : (Finset.univ.filter (fun e : Fin E => (idx (ix2 e (0 : Fin 2))).toInt = (a.val : ℤ)
      ∧ (idx (ix2 e (1 : Fin 2))).toInt = (b.val : ℤ))).card ≤ E := by
    refine (Finset.card_filter_le _ _).trans ?_
    simp
  generalize (Finset.univ.filter (fun e : Fin E => (idx (ix2 e (0 : Fin 2))).toInt = (a.val : ℤ)
      ∧ (idx (ix2 e (1 : Fin 2))).toInt = (b.val : ℤ))).card = c at hle
  have hmod : (BitVec.ofNat 32 c).toNat = c := by
    rw [BitVec.toNat_ofNat]
    exact Nat.mod_eq_of_lt (by omega)
  rw [BitVec.toInt_eq_toNat_of_lt (by rw [hmod]; omega), hmod]

end Cert.LibCountScatter

end
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.LibRowIndex.lean ====
/-
  Where a scatter of rows lands, and what a lookup by position reads.

  A scatter of E update rows of width D into an array of N rows, each row sent to the row number its index word
  names (read as a signed integer, not clamped; a row number outside 0 … N − 1 drops the update), lands update
  entry (e, k) on array entry (n, k) only if the e-th index word, read as a signed integer, is n.
  A lookup of a vector of N entries by a column of E positions reads, at p, the vector at the p-th position read
  as a signed integer and clamped into 0 … N − 1; a position that is already a row number is its own clamp; and
  the wrap-around of negative positions (add N where the word is negative) leaves a non-negative word alone.
-/
import Idealize.ShloMosaic.Lib.ValueIdx
import Idealize.ShloMosaic.Lib.StableHlo.Predicate
import proofs.«413754_j79628693668165_3_alg».proof.Proof.LibRowGather

noncomputable section

namespace Cert.RowIndex

open Idealize.ShloMosaic Idealize.ShloMosaic.ValueIdx Cert.LibRowGather

/-- The dimension numbers of a scatter of rows: array [N, D], index column [E, 1], updates [E, D]; the update's
    axis 1 is the window, the array's axis 0 is the scattered one. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update entry that lands on array entry `i` was sent there by its row's index word: that word, read as a signed
    integer, is `i`'s row number. -/
theorem row_of_resultIdx {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N D E wf).resultIdx? j idx = some i) :
    (idx (ix2 (j 0) (0 : Fin 1))).toInt = ((i 0).val : ℤ) := by
  unfold ScatterDims.resultIdx? at h
  split at h
  · rename_i hall
    have hi := Option.some.inj h
    have h0 := hall 0
    -- axis 0 is inserted: it carries no window coordinate
    have hw0 : (rowScatterDims N D E wf).window j 0 = 0 := by
      unfold ScatterDims.window
      rw [dif_neg]
      intro hk
      simp [ScatterDims.sKept, Shape.kept, List.mem_filter] at hk
    -- axis 0 is the one the index word addresses: its start is that word read signed
    have hs0 : (rowScatterDims N D E wf).start j idx 0 = (idx (ix2 (j 0) (0 : Fin 1))).toInt := by
      unfold ScatterDims.start
      rw [dif_pos (show (0 : Fin 2) ∈ (rowScatterDims N D E wf).scatterDimsToOperandDims from List.mem_singleton.mpr rfl)]
      have hsi : (rowScatterDims N D E wf).siIdx j
          ⟨List.idxOf (0 : Fin 2) (rowScatterDims N D E wf).scatterDimsToOperandDims,
            List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hv : (i 0).val = ((rowScatterDims N D E wf).start j idx 0 + (rowScatterDims N D E wf).window j 0).toNat := by
      rw [← hi]
    rw [hw0, hs0] at h0
    rw [hw0, hs0] at hv
    rw [hv]
    have := h0.1
    omega
  · exact absurd h (by simp)

/-- A word that reads, as a signed integer, a row number is clamped to that row. -/
theorem clampRow_of_toInt {N w : Nat} (hN : 0 < N) (v : BitVec w) (n : Fin N) (h : v.toInt = (n.val : ℤ)) :
    clampRow N hN v = n := by
  refine Fin.ext ?_
  show min v.toInt.toNat (N - 1) = n.val
  have hv : v.toInt.toNat = n.val := by rw [h]; exact Int.toNat_natCast _
  have := n.isLt
  rw [hv]
  omega

/-- jnp's wrap-around of a negative position leaves a non-negative word as it is. -/
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

/-- The lookup of a vector by a column of positions, read at `p`: the vector at the clamped position. -/
theorem take_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (p : Fin E) :
    Host.gather d x idx (ix1 p) = x (ix1 (clampRow N hN (idx (ix2 p (0 : Fin 1))))) := by
  -- the rank-1 index at p, and row p of the column, written either way
  have h1 : ∀ {n : Nat} (q : Fin n), Shape.Idx.ofFin q = ix1 q := fun q => by
    funext a
    obtain rfl : a = 0 := Subsingleton.elim _ _
    exact Fin.ext rfl
  have h2 : StableHlo.Predicate.ixP p = ix2 p (0 : Fin 1) := by
    funext a
    match a with
    | ⟨0, _⟩ => rfl
    | ⟨1, _⟩ => rfl
  have hg := StableHlo.Predicate.gather_take d hcoll hob hsim hivd x idx p hN
  rw [h1, h1] at hg
  simp only [h2] at hg
  exact hg

end Cert.RowIndex

end
-- ==== Proof.KHostCounts.lean ====
/-
  The table of edge counts the host code builds before the first pipeline, entry by entry.

  The host code takes the two rows of the table of edge ends (row 0 the sources, row 1 the ends), routes every word:
  a word that reads, as a signed integer, a node number (0 ≤ v < 10000) stays, any other becomes 10239 (the last
  padding row); applies the wrap-around of negative words (add 10240 where the word is negative), which changes
  nothing since a routed word is non-negative; lays the routed ends and the routed sources side by side as the two
  columns of a [320000, 2] table; scatters the word 1, adding, onto a [10240, 10240] table of zeros at the
  (row, column) each table row names; and converts the words to reals.  Entry (a, b) of the result is therefore the
  number of edges whose routed end is a and whose routed source is b.

  The proof reads the run one stretch of host operations at a time, each stretch stated over arbitrary buffer
  contents before it (the buffers it writes as functions of the buffers it reads, the others unchanged), chains the
  stretches from the launch memory, reads the two-column table at an index, and counts with the scatter-add lemma.
-/
import proofs.«413754_j79628693668165_3_alg».proof.Proof.Gen.KernelIdeal.Frame
import proofs.«413754_j79628693668165_3_alg».proof.Proof.SageSpec
import proofs.«413754_j79628693668165_3_alg».proof.Proof.LibCountScatter
import proofs.«413754_j79628693668165_3_alg».proof.Proof.LibRowIndex
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.KHostCounts

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- One edge end as the host code routes it: a word that reads a node number stays, any other becomes 10239; the
    wrap-around of negative words that follows changes nothing, the routed word being non-negative. -/
theorem routed (v : BitVec 32) :
    (Scalar.select
        (IntOp.cmpi .slt (Scalar.select (IntOp.andi (IntOp.cmpi .sge v 0#32) (IntOp.cmpi .slt v 10000#32)) v 10239#32) 0#32)
        (IntOp.addi (Scalar.select (IntOp.andi (IntOp.cmpi .sge v 0#32) (IntOp.cmpi .slt v 10000#32)) v 10239#32) 10240#32)
        (Scalar.select (IntOp.andi (IntOp.cmpi .sge v 0#32) (IntOp.cmpi .slt v 10000#32)) v 10239#32)).toInt
      = Cert.Sage.sinkOf v.toInt := by
  have h0 : (0#32).toInt = 0 := by decide
  have h1 : (10000#32).toInt = 10000 := by decide
  have h2 : (10239#32).toInt = 10239 := by decide
  by_cases hc : IntOp.andi (IntOp.cmpi .sge v 0#32) (IntOp.cmpi .slt v 10000#32) = 1#1
  · obtain ⟨ha, hb⟩ := IntOp.andi_eq_one.1 hc
    rw [IntOp.cmpi_sge, h0] at ha
    rw [IntOp.cmpi_slt, h1] at hb
    rw [hc, select_one, Cert.RowIndex.wrap_of_nonneg v _ ha]
    unfold Cert.Sage.sinkOf
    rw [if_pos ⟨ha, hb⟩]
  · have hz := eq_zero_of_ne_one hc
    rw [hz, select_zero, Cert.RowIndex.wrap_of_nonneg _ _ (by rw [h2]; norm_num), h2]
    unfold Cert.Sage.sinkOf
    rw [if_neg]
    rintro ⟨ha, hb⟩
    exact hc (IntOp.andi_eq_one.2 ⟨IntOp.cmpi_sge.2 (by rw [h0]; exact ha), IntOp.cmpi_slt.2 (by rw [h1]; exact hb)⟩)

/-- The wrap-around of negative words, on a whole column. -/
abbrev wrapCol (x : IVec S320000 32) : IVec S320000 32 :=
  select (cmpi .slt x (broadcastInDim S320000 ![] bcast_S_S320000 (constantI S_ 32 0#32)))
    (addi x (broadcastInDim S320000 ![] bcast_S_S320000 (constantI S_ 32 10240#32))) x

/-- The routing of a whole column: a word that reads a node number stays, any other becomes the given padding word. -/
abbrev routeCol (x : IVec S320000 32) (pad : IVec S_ 32) : IVec S320000 32 :=
  select (andi (cmpi .sge x (broadcastInDim S320000 ![] bcast_S_S320000 (constantI S_ 32 0#32)))
      (cmpi .slt x (broadcastInDim S320000 ![] bcast_S_S320000 (constantI S_ 32 10000#32))))
    x (broadcastInDim S320000 ![] bcast_S_S320000 pad)

/-- Row 0 of the table of edge ends (the sources), as a column of words. -/
abbrev srcRow (ei : IVec S2x320000 32) : IVec S320000 32 :=
  shapeCast S320000 (extractStridedSlice S1x320000 ![0, 0] ei slices_S2x320000_S1x320000_0_0) shapeCasts_S1x320000_S320000

/-- Row 1 of the table of edge ends (the ends), as a column of words. -/
abbrev dstRow (ei : IVec S2x320000 32) : IVec S320000 32 :=
  shapeCast S320000 (extractStridedSlice S1x320000 ![1, 0] ei slices_S2x320000_S1x320000_1_0) shapeCasts_S1x320000_S320000

/-- The test "reads a node number" on a whole column. -/
abbrev inRange (x : IVec S320000 32) : IVec S320000 1 :=
  andi (cmpi .sge x (broadcastInDim S320000 ![] bcast_S_S320000 (constantI S_ 32 0#32)))
    (cmpi .slt x (broadcastInDim S320000 ![] bcast_S_S320000 (constantI S_ 32 10000#32)))

/-- The first stretch leaves in the sources' buffer row 0 of the table of edge ends, as a column. -/
theorem s0_v1 (V : Valuation τ sig (Elt Ideal)) :
    (StableHlo.after (hostOps0 (F := Ideal)) V (Proc.devRef .tc main_v1) : IVec S320000 32)
      = srcRow (V (Proc.devRef .tc main_arg1)) := by
  simp only [hostOps0]
  after_results_simp
  rfl

/-- The first stretch leaves in the ends' buffer row 1 of the table of edge ends, as a column. -/
theorem s0_v3 (V : Valuation τ sig (Elt Ideal)) :
    (StableHlo.after (hostOps0 (F := Ideal)) V (Proc.devRef .tc main_v3) : IVec S320000 32)
      = dstRow (V (Proc.devRef .tc main_arg1)) := by
  simp only [hostOps0]
  after_results_simp
  rfl

/-- The first stretch leaves in the sources' mask the test 0 ≤ v < 10000 on every source word. -/
theorem s0_v8 (V : Valuation τ sig (Elt Ideal)) :
    (StableHlo.after (hostOps0 (F := Ideal)) V (Proc.devRef .tc main_v8) : IVec S320000 1)
      = inRange (srcRow (V (Proc.devRef .tc main_arg1))) := by
  simp only [hostOps0]
  after_results_simp
  rfl

/-- The first stretch leaves in the ends' mask the test 0 ≤ v < 10000 on every end word. -/
theorem s0_v13 (V : Valuation τ sig (Elt Ideal)) :
    (StableHlo.after (hostOps0 (F := Ideal)) V (Proc.devRef .tc main_v13) : IVec S320000 1)
      = inRange (dstRow (V (Proc.devRef .tc main_arg1))) := by
  simp only [hostOps0]
  after_results_simp
  rfl

/-- The first stretch leaves the padding word 10239 in the constant the sources' routing reads. -/
theorem s0_c3 (V : Valuation τ sig (Elt Ideal)) :
    (StableHlo.after (hostOps0 (F := Ideal)) V (Proc.devRef .tc main_c_3) : IVec S_ 32) = constantI S_ 32 10239#32 := by
  simp only [hostOps0]
  after_results_simp
/-- The ends' routing: the select of the ends' mask between the ends and the broadcast padding word. -/
theorem s3_v15 (V : Valuation τ sig (Elt Ideal)) :
    (StableHlo.after (hostOps0_3 (F := Ideal)) V (Proc.devRef .tc main_v15) : IVec S320000 32)
      = select (V (Proc.devRef .tc main_v13)) (V (Proc.devRef .tc main_v3))
          (broadcastInDim S320000 ![] bcast_S_S320000 (V (Proc.devRef .tc main_c_4))) := by
  simp only [hostOps0_3]
  after_results
  rfl

/-- The ends' routing leaves the routed sources as they were. -/
theorem s3_v14 (V : Valuation τ sig (Elt Ideal)) :
    StableHlo.after (hostOps0_3 (F := Ideal)) V (Proc.devRef .tc main_v14) = V (Proc.devRef .tc main_v14) := by
  simp only [hostOps0_3]
  after_results

/-- The stretch between the two routings leaves the padding word 10239 in the constant the ends' routing reads. -/
theorem s2_c4 (V : Valuation τ sig (Elt Ideal)) :
    (StableHlo.after (hostOps0_2 (F := Ideal)) V (Proc.devRef .tc main_c_4) : IVec S_ 32) = constantI S_ 32 10239#32 := by
  simp only [hostOps0_2]
  after_results

/-- The stretch between the two routings leaves the ends' mask as it was. -/
theorem s2_v13 (V : Valuation τ sig (Elt Ideal)) :
    StableHlo.after (hostOps0_2 (F := Ideal)) V (Proc.devRef .tc main_v13) = V (Proc.devRef .tc main_v13) := by
  simp only [hostOps0_2]
  after_results

/-- The stretch between the two routings leaves the ends as they were. -/
theorem s2_v3 (V : Valuation τ sig (Elt Ideal)) :
    StableHlo.after (hostOps0_2 (F := Ideal)) V (Proc.devRef .tc main_v3) = V (Proc.devRef .tc main_v3) := by
  simp only [hostOps0_2]
  after_results

/-- The stretch between the two routings leaves the routed sources as they were. -/
theorem s2_v14 (V : Valuation τ sig (Elt Ideal)) :
    StableHlo.after (hostOps0_2 (F := Ideal)) V (Proc.devRef .tc main_v14) = V (Proc.devRef .tc main_v14) := by
  simp only [hostOps0_2]
  after_results

/-- The sources' routing: the select of the sources' mask between the sources and the broadcast padding word. -/
theorem s1_v14 (V : Valuation τ sig (Elt Ideal)) :
    (StableHlo.after (hostOps0_1 (F := Ideal)) V (Proc.devRef .tc main_v14) : IVec S320000 32)
      = select (V (Proc.devRef .tc main_v8)) (V (Proc.devRef .tc main_v1))
          (broadcastInDim S320000 ![] bcast_S_S320000 (V (Proc.devRef .tc main_c_3))) := by
  simp only [hostOps0_1]
  after_results
  rfl

/-- The sources' routing leaves the ends' mask as it was. -/
theorem s1_v13 (V : Valuation τ sig (Elt Ideal)) :
    StableHlo.after (hostOps0_1 (F := Ideal)) V (Proc.devRef .tc main_v13) = V (Proc.devRef .tc main_v13) := by
  simp only [hostOps0_1]
  after_results

/-- The sources' routing leaves the ends as they were. -/
theorem s1_v3 (V : Valuation τ sig (Elt Ideal)) :
    StableHlo.after (hostOps0_1 (F := Ideal)) V (Proc.devRef .tc main_v3) = V (Proc.devRef .tc main_v3) := by
  simp only [hostOps0_1]
  after_results
/-- The counting stretch: the count table is the conversion to reals of the scatter-add of ones onto zeros along the
    two-column table of the wrapped routed ends (column 0) and the wrapped routed sources (column 1). -/
theorem s4_v32 (V : Valuation τ sig (Elt Ideal)) :
    (StableHlo.after (hostOps0_4 (F := Ideal)) V (Proc.devRef .tc main_v32) : Vec Ideal S10240x10240 .bf16)
      = sitofp (F := Ideal) .bf16 (Host.scatter scatter_S10240x10240_S320000x2_S320000_n_01_01_1 IntOp.addi
          (broadcastInDim S10240x10240 ![] bcast_S_S10240x10240 (constantI S_ 32 0#32))
          (concatenate S320000x2 1
            [⟨S320000x1, broadcastInDim S320000x1 ![0] bcast_S320000_S320000x1_0 (wrapCol (V (Proc.devRef .tc main_v15)))⟩,
             ⟨S320000x1, broadcastInDim S320000x1 ![0] bcast_S320000_S320000x1_0 (wrapCol (V (Proc.devRef .tc main_v14)))⟩]
            concatenates_S320000x1_S320000x1_S320000x2_d1)
          (broadcastInDim S320000 ![] bcast_S_S320000 (constantI S_ 32 1#32))) := by
  simp only [hostOps0_4]
  after_results_simp
  rfl

/-- The last stretch before the pipeline does not write the count table. -/
theorem s6_v32 (V : Valuation τ sig (Elt Ideal)) :
    StableHlo.after (hostOps0_6 (F := Ideal)) V (Proc.devRef .tc main_v32) = V (Proc.devRef .tc main_v32) := by
  simp only [hostOps0_6]
  after_results

/-- The padding stretch does not write the count table. -/
theorem s5_v32 (V : Valuation τ sig (Elt Ideal)) :
    StableHlo.after (hostOps0_5 (F := Ideal)) V (Proc.devRef .tc main_v32) = V (Proc.devRef .tc main_v32) := by
  simp only [hostOps0_5]
  after_results

/-- A column of E words laid out as an [E, 1] array reads, at (e, 0), the column's e-th word. -/
theorem col_apply (x : IVec S320000 32) (e : Fin 320000) :
    broadcastInDim S320000x1 ![0] bcast_S320000_S320000x1_0 x (ix2 e (0 : Fin 1)) = x (ix1 e) := by
  have h1 : Shape.Idx.ofFin e = ix1 e := by
    funext a
    obtain rfl : a = 0 := Subsingleton.elim _ _
    exact Fin.ext rfl
  have h2 : StableHlo.Predicate.ixP e = ix2 e (0 : Fin 1) := by
    funext a
    match a with
    | ⟨0, _⟩ => rfl
    | ⟨1, _⟩ => rfl
  have hg := StableHlo.Predicate.bcast_col1 bcast_S320000_S320000x1_0 x e
  rw [h1, h2] at hg
  exact hg

/-- The two-column table read in column 0: the first column's word. -/
theorem table_col0 (x y : IVec S320000 32) (e : Fin 320000) :
    concatenate S320000x2 (1 : Fin S320000x2.rank)
        [⟨S320000x1, broadcastInDim S320000x1 ![0] bcast_S320000_S320000x1_0 x⟩,
         ⟨S320000x1, broadcastInDim S320000x1 ![0] bcast_S320000_S320000x1_0 y⟩]
        concatenates_S320000x1_S320000x1_S320000x2_d1 (ix2 e (0 : Fin 2))
      = x (ix1 e) := by
  rw [concatenate_pair_apply_left (1 : Fin S320000x2.rank) _ _ concatenates_S320000x1_S320000x1_S320000x2_d1
    (ix2 e (0 : Fin 2)) rfl (ix2 e (0 : Fin 1)) (by
      intro b
      match b with
      | ⟨0, _⟩ => rfl
      | ⟨1, _⟩ => rfl)]
  exact col_apply x e

/-- The two-column table read in column 1: the second column's word. -/
theorem table_col1 (x y : IVec S320000 32) (e : Fin 320000) :
    concatenate S320000x2 (1 : Fin S320000x2.rank)
        [⟨S320000x1, broadcastInDim S320000x1 ![0] bcast_S320000_S320000x1_0 x⟩,
         ⟨S320000x1, broadcastInDim S320000x1 ![0] bcast_S320000_S320000x1_0 y⟩]
        concatenates_S320000x1_S320000x1_S320000x2_d1 (ix2 e (1 : Fin 2))
      = y (ix1 e) := by
  rw [concatenate_pair_apply_right (1 : Fin S320000x2.rank) _ _ concatenates_S320000x1_S320000x1_S320000x2_d1
    (ix2 e (1 : Fin 2)) rfl rfl (ix2 e (0 : Fin 1)) (by
      intro b hb
      match b with
      | ⟨0, _⟩ => rfl
      | ⟨1, _⟩ => exact absurd rfl hb) rfl]
  exact col_apply y e

/-- Routing, then the wrap-around, read at one position: the routed edge end, as a signed integer. -/
theorem wrap_route_apply (x : IVec S320000 32) (i : S320000.Idx) :
    (wrapCol (routeCol x (constantI S_ 32 10239#32)) i).toInt = Cert.Sage.sinkOf (x i).toInt :=
  routed (x i)

/-- The sources' column at e is the table of edge ends at (0, e). -/
theorem srcRow_apply (ei : IVec S2x320000 32) (e : Fin 320000) : srcRow ei (ix1 e) = ei (ix2 (0 : Fin 2) e) := by
  show shapeCast S320000 _ shapeCasts_S1x320000_S320000 (ix1 e) = _
  rw [shapeCast_apply _ shapeCasts_S1x320000_S320000 (ix1 e) (ix2 (0 : Fin 1) e) (by
    rw [Shape.rowMajor_val_two, Shape.rowMajor_val_one]
    show 0 * 320000 + e.val = e.val
    omega)]
  unfold extractStridedSlice
  congr 1
  funext a
  apply Fin.ext
  match a with
  | ⟨0, _⟩ => rfl
  | ⟨1, _⟩ => show 0 + e.val = e.val; omega

/-- The ends' column at e is the table of edge ends at (1, e). -/
theorem dstRow_apply (ei : IVec S2x320000 32) (e : Fin 320000) : dstRow ei (ix1 e) = ei (ix2 (1 : Fin 2) e) := by
  show shapeCast S320000 _ shapeCasts_S1x320000_S320000 (ix1 e) = _
  rw [shapeCast_apply _ shapeCasts_S1x320000_S320000 (ix1 e) (ix2 (0 : Fin 1) e) (by
    rw [Shape.rowMajor_val_two, Shape.rowMajor_val_one]
    show 0 * 320000 + e.val = e.val
    omega)]
  unfold extractStridedSlice
  congr 1
  funext a
  apply Fin.ext
  match a with
  | ⟨0, _⟩ => rfl
  | ⟨1, _⟩ => show 0 + e.val = e.val; omega

section Boundaries
variable (c : Dev nD)

/-- After the first stretch the sources' buffer holds row 0 of the launch's table of edge ends. -/
theorem W1_v1 : (W1 (F := Ideal) m ρ c (Proc.devRef .tc main_v1) : IVec S320000 32)
    = srcRow (m ((c : Thread nD τ).loc main_arg1)) := s0_v1 (W0 m ρ c)
/-- After the first stretch the ends' buffer holds row 1 of the launch's table of edge ends. -/
theorem W1_v3 : (W1 (F := Ideal) m ρ c (Proc.devRef .tc main_v3) : IVec S320000 32)
    = dstRow (m ((c : Thread nD τ).loc main_arg1)) := s0_v3 (W0 m ρ c)
/-- After the first stretch the sources' mask is the node-number test on row 0. -/
theorem W1_v8 : (W1 (F := Ideal) m ρ c (Proc.devRef .tc main_v8) : IVec S320000 1)
    = inRange (srcRow (m ((c : Thread nD τ).loc main_arg1))) := s0_v8 (W0 m ρ c)
/-- After the first stretch the ends' mask is the node-number test on row 1. -/
theorem W1_v13 : (W1 (F := Ideal) m ρ c (Proc.devRef .tc main_v13) : IVec S320000 1)
    = inRange (dstRow (m ((c : Thread nD τ).loc main_arg1))) := s0_v13 (W0 m ρ c)
/-- After the first stretch the sources' padding constant is 10239. -/
theorem W1_c3 : (W1 (F := Ideal) m ρ c (Proc.devRef .tc main_c_3) : IVec S_ 32) = constantI S_ 32 10239#32 :=
  s0_c3 (W0 m ρ c)

/-- After the sources' routing: row 0 routed. -/
theorem W2_v14 : (W2 (F := Ideal) m ρ c (Proc.devRef .tc main_v14) : IVec S320000 32)
    = routeCol (srcRow (m ((c : Thread nD τ).loc main_arg1))) (constantI S_ 32 10239#32) := by
  refine (s1_v14 (W1 m ρ c)).trans ?_
  rw [W1_v8 m ρ c, W1_v1 m ρ c, W1_c3 m ρ c]
/-- After the sources' routing the ends' mask is still the node-number test on row 1. -/
theorem W2_v13 : (W2 (F := Ideal) m ρ c (Proc.devRef .tc main_v13) : IVec S320000 1)
    = inRange (dstRow (m ((c : Thread nD τ).loc main_arg1))) := (s1_v13 (W1 m ρ c)).trans (W1_v13 m ρ c)
/-- After the sources' routing the ends' buffer still holds row 1. -/
theorem W2_v3 : (W2 (F := Ideal) m ρ c (Proc.devRef .tc main_v3) : IVec S320000 32)
    = dstRow (m ((c : Thread nD τ).loc main_arg1)) := (s1_v3 (W1 m ρ c)).trans (W1_v3 m ρ c)

/-- Before the ends' routing its padding constant is 10239. -/
theorem W3_c4 : (W3 (F := Ideal) m ρ c (Proc.devRef .tc main_c_4) : IVec S_ 32) = constantI S_ 32 10239#32 :=
  s2_c4 (W2 m ρ c)
/-- Before the ends' routing the ends' mask is the node-number test on row 1. -/
theorem W3_v13 : (W3 (F := Ideal) m ρ c (Proc.devRef .tc main_v13) : IVec S320000 1)
    = inRange (dstRow (m ((c : Thread nD τ).loc main_arg1))) := (s2_v13 (W2 m ρ c)).trans (W2_v13 m ρ c)
/-- Before the ends' routing the ends' buffer holds row 1. -/
theorem W3_v3 : (W3 (F := Ideal) m ρ c (Proc.devRef .tc main_v3) : IVec S320000 32)
    = dstRow (m ((c : Thread nD τ).loc main_arg1)) := (s2_v3 (W2 m ρ c)).trans (W2_v3 m ρ c)
/-- Before the ends' routing the routed sources are row 0 routed. -/
theorem W3_v14 : (W3 (F := Ideal) m ρ c (Proc.devRef .tc main_v14) : IVec S320000 32)
    = routeCol (srcRow (m ((c : Thread nD τ).loc main_arg1))) (constantI S_ 32 10239#32) :=
  (s2_v14 (W2 m ρ c)).trans (W2_v14 m ρ c)

/-- After the ends' routing: row 1 routed. -/
theorem W4_v15 : (W4 (F := Ideal) m ρ c (Proc.devRef .tc main_v15) : IVec S320000 32)
    = routeCol (dstRow (m ((c : Thread nD τ).loc main_arg1))) (constantI S_ 32 10239#32) := by
  refine (s3_v15 (W3 m ρ c)).trans ?_
  rw [W3_v13 m ρ c, W3_v3 m ρ c, W3_c4 m ρ c]
/-- After the ends' routing the routed sources are still row 0 routed. -/
theorem W4_v14 : (W4 (F := Ideal) m ρ c (Proc.devRef .tc main_v14) : IVec S320000 32)
    = routeCol (srcRow (m ((c : Thread nD τ).loc main_arg1))) (constantI S_ 32 10239#32) :=
  (s3_v14 (W3 m ρ c)).trans (W3_v14 m ρ c)

/-- The table the first pipeline is entered with, as one term over the launch's table of edge ends. -/
theorem W7_v32 : (W7 (F := Ideal) m ρ c (Proc.devRef .tc main_v32) : Vec Ideal S10240x10240 .bf16)
    = sitofp (F := Ideal) .bf16 (Host.scatter scatter_S10240x10240_S320000x2_S320000_n_01_01_1 IntOp.addi
        (broadcastInDim S10240x10240 ![] bcast_S_S10240x10240 (constantI S_ 32 0#32))
        (concatenate S320000x2 1
          [⟨S320000x1, broadcastInDim S320000x1 ![0] bcast_S320000_S320000x1_0
              (wrapCol (routeCol (dstRow (m ((c : Thread nD τ).loc main_arg1))) (constantI S_ 32 10239#32)))⟩,
           ⟨S320000x1, broadcastInDim S320000x1 ![0] bcast_S320000_S320000x1_0
              (wrapCol (routeCol (srcRow (m ((c : Thread nD τ).loc main_arg1))) (constantI S_ 32 10239#32)))⟩]
          concatenates_S320000x1_S320000x1_S320000x2_d1)
        (broadcastInDim S320000 ![] bcast_S_S320000 (constantI S_ 32 1#32))) := by
  refine (s6_v32 (W6 m ρ c)).trans ?_
  refine (s5_v32 (W5 m ρ c)).trans ?_
  refine (s4_v32 (W4 m ρ c)).trans ?_
  rw [W4_v15 m ρ c, W4_v14 m ρ c]

end Boundaries

/-- The conversion of a table of words to reals, read at an entry: the word read as a signed integer. -/
theorem sitofp_ideal_apply {s : Shape} (X : IVec s 32) (i : s.Idx) :
    sitofp (F := Ideal) .bf16 X i = (((X i).toInt : ℝ) : EReal) := rfl

/-- Ones scattered onto zeros along a two-column table whose column 0 reads the routed ends and whose column 1 reads
    the routed sources: entry (a, b), as a real, is the number of edges routed to row a and column b. -/
theorem counts_of_cols (T : IVec S320000x2 32) (src dst : Fin 320000 → ℤ)
    (h0 : ∀ e : Fin 320000, (T (ix2 e (0 : Fin 2))).toInt = Cert.Sage.sinkOf (dst e))
    (h1 : ∀ e : Fin 320000, (T (ix2 e (1 : Fin 2))).toInt = Cert.Sage.sinkOf (src e)) (a b : Fin 10240) :
    sitofp (F := Ideal) .bf16 (Host.scatter scatter_S10240x10240_S320000x2_S320000_n_01_01_1 IntOp.addi
        (broadcastInDim S10240x10240 ![] bcast_S_S10240x10240 (constantI S_ 32 0#32)) T
        (broadcastInDim S320000 ![] bcast_S_S320000 (constantI S_ 32 1#32))) (ix2 a b)
      = (((Cert.Sage.counts src dst a b : ℕ) : ℝ) : EReal) := by
  have hcnt : (Host.scatter scatter_S10240x10240_S320000x2_S320000_n_01_01_1 IntOp.addi
        (broadcastInDim S10240x10240 ![] bcast_S_S10240x10240 (constantI S_ 32 0#32)) T
        (broadcastInDim S320000 ![] bcast_S_S320000 (constantI S_ 32 1#32)) (ix2 a b)).toInt
      = ((Finset.univ.filter (fun e : Fin 320000 => (T (ix2 e (0 : Fin 2))).toInt = (a.val : ℤ)
          ∧ (T (ix2 e (1 : Fin 2))).toInt = (b.val : ℤ))).card : ℤ) :=
    Cert.LibCountScatter.count_entry (A := 10240) (B := 10240) (E := 320000) (w := 32)
      scatter_S10240x10240_S320000x2_S320000_n_01_01_1_wf (by norm_num)
      (broadcastInDim S10240x10240 ![] bcast_S_S10240x10240 (constantI S_ 32 0#32)) T
      (broadcastInDim S320000 ![] bcast_S_S320000 (constantI S_ 32 1#32)) (fun _ => rfl) (fun _ => rfl) a b
  have hfilter : (Finset.univ.filter (fun e : Fin 320000 => (T (ix2 e (0 : Fin 2))).toInt = (a.val : ℤ)
        ∧ (T (ix2 e (1 : Fin 2))).toInt = (b.val : ℤ)))
      = Finset.univ.filter (fun e : Fin 320000 => Cert.Sage.sinkOf (dst e) = (a.val : ℤ)
        ∧ Cert.Sage.sinkOf (src e) = (b.val : ℤ)) :=
    Finset.filter_congr (fun e _ => by rw [h0 e, h1 e])
  rw [hfilter] at hcnt
  rw [sitofp_ideal_apply, hcnt]
  unfold Cert.Sage.counts
  rw [Int.cast_natCast]

/-- Entry (a, b) of the table the first pipeline is entered with: the number of edges routed to row a (by end) and
    column b (by source), as a real. -/
theorem W7_counts (c : Dev nD) (a b : Fin 10240) :
    (W7 (F := Ideal) m ρ c (Proc.devRef .tc main_v32) : Vec Ideal S10240x10240 .bf16) (ix2 a b)
      = (((Cert.Sage.counts (Cert.Sage.ends (m ((c : Thread nD τ).loc main_arg1)) 0)
            (Cert.Sage.ends (m ((c : Thread nD τ).loc main_arg1)) 1) a b : ℕ) : ℝ) : EReal) := by
  rw [W7_v32 m ρ c]
  refine counts_of_cols _ _ _ ?_ ?_ a b
  · intro e
    rw [table_col0, wrap_route_apply, dstRow_apply]
    rfl
  · intro e
    rw [table_col1, wrap_route_apply, srcRow_apply]
    rfl

end Cert.KHostCounts

end
-- ==== Proof.KHostArrays.lean ====
/-
  The arrays the program's host code prepares before its first region, read back to the argument arrays
  (on the extended reals).

  Before the first region the program runs seven stretches of host operations.  The last three matter here:
  the last constant of the fifth stretch is the integer zero; the sixth stretch (the padding call) converts it to
  a float and pads the 10000×256 feature table with it to 10240×256, 240 rows appended below; the seventh
  narrows the format of the padded table and of the four weight tables and lays each bias vector out as one row.

  No stretch writes an argument array, so where a stretch reads one it finds what was there at launch.  On the
  extended reals a change of float format is the identity and the converted integer zero is the real zero.  So the
  first region finds

    * the feature table with row a equal to the argument's row a for a < 10000 and zero for 10000 ≤ a < 10240,
    * the four weight tables as the arguments are,
    * each bias row with entry (0, q) equal to the argument vector's entry q.

  Each buffer a stretch writes is first obtained as a function of the contents before the stretch (over ANY such
  contents, so that nothing earlier is unfolded), then read at an index over variables.
-/
import proofs.«413754_j79628693668165_3_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KHostArrays

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! ## A buffer no stretch writes is as launched -/

/-- Closes "no operation of this stretch writes the buffer": the stretch is a literal list, each of its operations
    writes one literal reference, and two literal references are compared by computation. -/
local macro "not_written" : tactic => `(tactic| (
  refine List.forall_iff_forall_mem.mp ?_
  simp only [hostOps0, hostOps0_1, hostOps0_2, hostOps0_3, hostOps0_4, hostOps0_5, hostOps0_6, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

/-- A buffer none of the first five stretches writes holds, before the padding call, what it held at launch. -/
theorem W5_of_not_written (c : Dev nD) (b : DevRef τ sig)
    (h0 : ∀ op ∈ (hostOps0 : List (HloOp τ sig (Elt Ideal))), b ∉ op.writes)
    (h1 : ∀ op ∈ (hostOps0_1 : List (HloOp τ sig (Elt Ideal))), b ∉ op.writes)
    (h2 : ∀ op ∈ (hostOps0_2 : List (HloOp τ sig (Elt Ideal))), b ∉ op.writes)
    (h3 : ∀ op ∈ (hostOps0_3 : List (HloOp τ sig (Elt Ideal))), b ∉ op.writes)
    (h4 : ∀ op ∈ (hostOps0_4 : List (HloOp τ sig (Elt Ideal))), b ∉ op.writes) :
    W5 (F := Ideal) m ρ c b = W0 m ρ c b :=
  calc W5 (F := Ideal) m ρ c b
    _ = W4 m ρ c b := StableHlo.after_of_forall_not_mem _ _ h4
    _ = W3 m ρ c b := StableHlo.after_of_forall_not_mem _ _ h3
    _ = W2 m ρ c b := StableHlo.after_of_forall_not_mem _ _ h2
    _ = W1 m ρ c b := StableHlo.after_of_forall_not_mem _ _ h1
    _ = W0 m ρ c b := StableHlo.after_of_forall_not_mem _ _ h0

/-- The same one stretch later, after the padding call. -/
theorem W6_of_not_written (c : Dev nD) (b : DevRef τ sig)
    (h0 : ∀ op ∈ (hostOps0 : List (HloOp τ sig (Elt Ideal))), b ∉ op.writes)
    (h1 : ∀ op ∈ (hostOps0_1 : List (HloOp τ sig (Elt Ideal))), b ∉ op.writes)
    (h2 : ∀ op ∈ (hostOps0_2 : List (HloOp τ sig (Elt Ideal))), b ∉ op.writes)
    (h3 : ∀ op ∈ (hostOps0_3 : List (HloOp τ sig (Elt Ideal))), b ∉ op.writes)
    (h4 : ∀ op ∈ (hostOps0_4 : List (HloOp τ sig (Elt Ideal))), b ∉ op.writes)
    (h5 : ∀ op ∈ (hostOps0_5 : List (HloOp τ sig (Elt Ideal))), b ∉ op.writes) :
    W6 (F := Ideal) m ρ c b = W0 m ρ c b :=
  (StableHlo.after_of_forall_not_mem _ _ h5).trans (W5_of_not_written m ρ c b h0 h1 h2 h3 h4)

/-- The feature table is as launched when the padding call reads it. -/
theorem W5_arg0 (c : Dev nD) : W5 (F := Ideal) m ρ c (Proc.devRef .tc main_arg0) = m ((c : Thread nD τ).loc main_arg0) :=
  W5_of_not_written m ρ c _ (by not_written) (by not_written) (by not_written) (by not_written) (by not_written)
/-- The first layer's left weights are as launched when the last stretch reads them. -/
theorem W6_arg2 (c : Dev nD) : W6 (F := Ideal) m ρ c (Proc.devRef .tc main_arg2) = m ((c : Thread nD τ).loc main_arg2) :=
  W6_of_not_written m ρ c _ (by not_written) (by not_written) (by not_written) (by not_written) (by not_written) (by not_written)
/-- The first layer's bias likewise. -/
theorem W6_arg3 (c : Dev nD) : W6 (F := Ideal) m ρ c (Proc.devRef .tc main_arg3) = m ((c : Thread nD τ).loc main_arg3) :=
  W6_of_not_written m ρ c _ (by not_written) (by not_written) (by not_written) (by not_written) (by not_written) (by not_written)
/-- The first layer's right weights likewise. -/
theorem W6_arg4 (c : Dev nD) : W6 (F := Ideal) m ρ c (Proc.devRef .tc main_arg4) = m ((c : Thread nD τ).loc main_arg4) :=
  W6_of_not_written m ρ c _ (by not_written) (by not_written) (by not_written) (by not_written) (by not_written) (by not_written)
/-- The second layer's left weights likewise. -/
theorem W6_arg5 (c : Dev nD) : W6 (F := Ideal) m ρ c (Proc.devRef .tc main_arg5) = m ((c : Thread nD τ).loc main_arg5) :=
  W6_of_not_written m ρ c _ (by not_written) (by not_written) (by not_written) (by not_written) (by not_written) (by not_written)
/-- The second layer's bias likewise. -/
theorem W6_arg6 (c : Dev nD) : W6 (F := Ideal) m ρ c (Proc.devRef .tc main_arg6) = m ((c : Thread nD τ).loc main_arg6) :=
  W6_of_not_written m ρ c _ (by not_written) (by not_written) (by not_written) (by not_written) (by not_written) (by not_written)
/-- The second layer's right weights likewise. -/
theorem W6_arg7 (c : Dev nD) : W6 (F := Ideal) m ρ c (Proc.devRef .tc main_arg7) = m ((c : Thread nD τ).loc main_arg7) :=
  W6_of_not_written m ρ c _ (by not_written) (by not_written) (by not_written) (by not_written) (by not_written) (by not_written)

/-! ## What each of the last three stretches writes, over any contents before it -/

section Stretch
variable (V : Valuation τ sig (Elt Ideal))

/-- The integer zero the padding value is converted from: the last constant of its stretch. -/
theorem stretch4_c11 : StableHlo.after hostOps0_4 V (Proc.devRef .tc main_c_11) = constantI S_ 32 0#32 := by
  dsimp only [hostOps0_4]
  after_results

/-- The padding call: the feature table padded with the converted constant. -/
theorem stretch5_v33 : StableHlo.after hostOps0_5 V (Proc.devRef .tc main_v33)
    = pad (s := S10000x256) S10240x256 ![0, 0] ![240, 0] ![0, 0] (V (Proc.devRef .tc main_arg0))
        (sitofp (F := Ideal) (s := S_) (w := 32) .f32 (V (Proc.devRef .tc main_c_11))) pads_S10000x256_S10240x256_02400_000 h_S_ := by
  dsimp only [hostOps0_5]
  after_results
  rfl

/-- The last stretch narrows the padded table's format … -/
theorem stretch6_v34 : StableHlo.after hostOps0_6 V (Proc.devRef .tc main_v34)
    = truncf (F := Ideal) (s := S10240x256) (φ := .f32) .bf16 (V (Proc.devRef .tc main_v33)) bitsLt_bf16_f32 := by
  dsimp only [hostOps0_6]
  after_results
/-- … and the four weight tables' … -/
theorem stretch6_v35 : StableHlo.after hostOps0_6 V (Proc.devRef .tc main_v35)
    = truncf (F := Ideal) (s := S256x512) (φ := .f32) .bf16 (V (Proc.devRef .tc main_arg2)) bitsLt_bf16_f32 := by
  dsimp only [hostOps0_6]
  after_results
theorem stretch6_v36 : StableHlo.after hostOps0_6 V (Proc.devRef .tc main_v36)
    = truncf (F := Ideal) (s := S256x512) (φ := .f32) .bf16 (V (Proc.devRef .tc main_arg4)) bitsLt_bf16_f32 := by
  dsimp only [hostOps0_6]
  after_results
theorem stretch6_v37 : StableHlo.after hostOps0_6 V (Proc.devRef .tc main_v37)
    = truncf (F := Ideal) (s := S512x128) (φ := .f32) .bf16 (V (Proc.devRef .tc main_arg5)) bitsLt_bf16_f32 := by
  dsimp only [hostOps0_6]
  after_results
theorem stretch6_v38 : StableHlo.after hostOps0_6 V (Proc.devRef .tc main_v38)
    = truncf (F := Ideal) (s := S512x128) (φ := .f32) .bf16 (V (Proc.devRef .tc main_arg7)) bitsLt_bf16_f32 := by
  dsimp only [hostOps0_6]
  after_results
/-- … and lays each bias vector out as one row. -/
theorem stretch6_v39 : StableHlo.after hostOps0_6 V (Proc.devRef .tc main_v39)
    = shapeCast (s := S512) (α := EReal) S1x512 (V (Proc.devRef .tc main_arg3)) shapeCasts_S512_S1x512 := by
  dsimp only [hostOps0_6]
  after_results
  rfl
theorem stretch6_v40 : StableHlo.after hostOps0_6 V (Proc.devRef .tc main_v40)
    = shapeCast (s := S128) (α := EReal) S1x128 (V (Proc.devRef .tc main_arg6)) shapeCasts_S128_S1x128 := by
  dsimp only [hostOps0_6]
  after_results
  rfl

end Stretch

/-! ## The prepared arrays at an entry, over variables -/

/-- The integer zero converted to a float is the real zero, at whichever index it is read. -/
theorem padValue_apply (i : S_.Idx) : sitofp (F := Ideal) (s := S_) (w := 32) .f32 (constantI S_ 32 0#32) i = 0 := by
  show ((((0#32 : BitVec 32).toInt : ℤ) : ℝ) : EReal) = 0
  simp

/-- THE PADDED TABLE at (a, k): 240 rows of the padding value are appended below the table's 10000 rows and nothing
    is put in front, between or beside, so row a is the table's row a while a < 10000 and zero from there on; the
    narrowing of the format changes no value. -/
theorem padRows_apply (x : Vec Ideal S10000x256 .f32) (a : Fin 10240) (k : Fin 256) :
    truncf (F := Ideal) .bf16 (pad S10240x256 ![0, 0] ![240, 0] ![0, 0] x
        (sitofp (F := Ideal) (s := S_) (w := 32) .f32 (constantI S_ 32 0#32)) pads_S10000x256_S10240x256_02400_000 h_S_) bitsLt_bf16_f32 (ix2 a k)
      = if h : a.val < 10000 then x (ix2 ⟨a.val, h⟩ k) else 0 := by
  rw [truncf_apply]
  by_cases h : a.val < 10000
  · rw [dif_pos h]
    refine pad_apply_of_inside _ _ _ x _ _ _ (ix2 a k) (ix2 ⟨a.val, h⟩ k) fun ax => ?_
    match ax with
    | ⟨0, _⟩ => show a.val = 0 + a.val * (0 + 1); omega
    | ⟨1, _⟩ => show k.val = 0 + k.val * (0 + 1); omega
  · rw [dif_neg h, pad_apply_of_not_inside _ _ _ x _ _ _ (ix2 a k) (0 : Fin 2) (fun hh => h ?_)]
    · exact padValue_apply _
    · have h3 : (a.val - 0) / (0 + 1) < 10000 := hh.2.2
      omega

/-- A VECTOR LAID OUT AS ONE ROW reads, at (0, q), the vector's entry q: both have row-major position q. -/
theorem oneRow_apply {n : Nat} (b : (⟨1, ![n]⟩ : Shape).Idx → EReal) (h : (⟨1, ![n]⟩ : Shape).ShapeCasts ⟨2, ![1, n]⟩) (q : Fin n) :
    shapeCast ⟨2, ![1, n]⟩ b h (ix2 (0 : Fin 1) q) = b (ix1 q) := by
  refine shapeCast_apply b h _ _ ?_
  rw [Shape.rowMajor_val_one, Shape.rowMajor_val_two]
  show q.val = 0 * n + q.val
  omega

/-! ## The arrays the first region finds -/

/-- The feature table the first region finds: the argument table's rows, then 240 rows of zeros. -/
theorem W7_xpad (c : Dev nD) (a : Fin 10240) (k : Fin 256) :
    (W7 (F := Ideal) m ρ c (Proc.devRef .tc main_v34) : Vec Ideal S10240x256 .bf16) (ix2 a k)
      = (if h : a.val < 10000 then ((m ((c : Thread nD τ).loc main_arg0) : Vec Ideal S10000x256 .f32) (ix2 ⟨a.val, h⟩ k) : EReal)
          else (0 : EReal)) := by
  have e : (W7 (F := Ideal) m ρ c (Proc.devRef .tc main_v34) : Vec Ideal S10240x256 .bf16)
      = truncf (F := Ideal) .bf16 (pad S10240x256 ![0, 0] ![240, 0] ![0, 0] (m ((c : Thread nD τ).loc main_arg0) : Vec Ideal S10000x256 .f32)
          (sitofp (F := Ideal) (s := S_) (w := 32) .f32 (constantI S_ 32 0#32)) pads_S10000x256_S10240x256_02400_000 h_S_) bitsLt_bf16_f32 := by
    refine (stretch6_v34 (W6 (F := Ideal) m ρ c)).trans ?_
    rw [show W6 (F := Ideal) m ρ c (Proc.devRef .tc main_v33) = _ from stretch5_v33 (W5 (F := Ideal) m ρ c), W5_arg0,
      show W5 (F := Ideal) m ρ c (Proc.devRef .tc main_c_11) = _ from stretch4_c11 (W4 (F := Ideal) m ρ c)]
  rw [e]
  exact padRows_apply _ a k

/-- The first layer's left weight table the first region finds is the argument's. -/
theorem W7_w1l (c : Dev nD) : (W7 (F := Ideal) m ρ c (Proc.devRef .tc main_v35) : Vec Ideal S256x512 .bf16) = m ((c : Thread nD τ).loc main_arg2) := by
  refine (stretch6_v35 (W6 (F := Ideal) m ρ c)).trans ?_
  rw [W6_arg2]
  rfl
/-- The first layer's right weight table likewise. -/
theorem W7_w1r (c : Dev nD) : (W7 (F := Ideal) m ρ c (Proc.devRef .tc main_v36) : Vec Ideal S256x512 .bf16) = m ((c : Thread nD τ).loc main_arg4) := by
  refine (stretch6_v36 (W6 (F := Ideal) m ρ c)).trans ?_
  rw [W6_arg4]
  rfl
/-- The second layer's left weight table likewise. -/
theorem W7_w2l (c : Dev nD) : (W7 (F := Ideal) m ρ c (Proc.devRef .tc main_v37) : Vec Ideal S512x128 .bf16) = m ((c : Thread nD τ).loc main_arg5) := by
  refine (stretch6_v37 (W6 (F := Ideal) m ρ c)).trans ?_
  rw [W6_arg5]
  rfl
/-- The second layer's right weight table likewise. -/
theorem W7_w2r (c : Dev nD) : (W7 (F := Ideal) m ρ c (Proc.devRef .tc main_v38) : Vec Ideal S512x128 .bf16) = m ((c : Thread nD τ).loc main_arg7) := by
  refine (stretch6_v38 (W6 (F := Ideal) m ρ c)).trans ?_
  rw [W6_arg7]
  rfl

/-- The first layer's bias row the first region finds: entry (0, q) is the argument vector's entry q. -/
theorem W7_b1 (c : Dev nD) (q : Fin 512) :
    (W7 (F := Ideal) m ρ c (Proc.devRef .tc main_v39) : Vec Ideal S1x512 .f32) (ix2 (0 : Fin 1) q) = (m ((c : Thread nD τ).loc main_arg3) : Vec Ideal S512 .f32) (ix1 q) := by
  have e : (W7 (F := Ideal) m ρ c (Proc.devRef .tc main_v39) : Vec Ideal S1x512 .f32)
      = shapeCast (s := S512) (α := EReal) S1x512 (m ((c : Thread nD τ).loc main_arg3)) shapeCasts_S512_S1x512 := by
    refine (stretch6_v39 (W6 (F := Ideal) m ρ c)).trans ?_
    rw [W6_arg3]
  rw [e]
  exact oneRow_apply _ _ q
/-- The second layer's bias row likewise. -/
theorem W7_b2 (c : Dev nD) (q : Fin 128) :
    (W7 (F := Ideal) m ρ c (Proc.devRef .tc main_v40) : Vec Ideal S1x128 .f32) (ix2 (0 : Fin 1) q) = (m ((c : Thread nD τ).loc main_arg6) : Vec Ideal S128 .f32) (ix1 q) := by
  have e : (W7 (F := Ideal) m ρ c (Proc.devRef .tc main_v40) : Vec Ideal S1x128 .f32)
      = shapeCast (s := S128) (α := EReal) S1x128 (m ((c : Thread nD τ).loc main_arg6)) shapeCasts_S128_S1x128 := by
    refine (stretch6_v40 (W6 (F := Ideal) m ρ c)).trans ?_
    rw [W6_arg6]
  rw [e]
  exact oneRow_apply _ _ q

end Cert.KHostArrays

end
-- ==== Proof.KResult.lean ====
/-
  The kernel program's result array is the specification's G of the argument arrays.

  The two pipelines' outputs (entry by entry) and the host code's tables (read back to the argument arrays) are put
  into the chain from the first pipeline's entry to the result's slice.
-/
import proofs.«413754_j79628693668165_3_alg».proof.Proof.Gen.KernelIdeal.Frame
import proofs.«413754_j79628693668165_3_alg».proof.Proof.SageSpec
import proofs.«413754_j79628693668165_3_alg».proof.Proof.KValue
import proofs.«413754_j79628693668165_3_alg».proof.Proof.KRegion0
import proofs.«413754_j79628693668165_3_alg».proof.Proof.KRegion1
import proofs.«413754_j79628693668165_3_alg».proof.Proof.KHostCounts
import proofs.«413754_j79628693668165_3_alg».proof.Proof.KHostArrays

noncomputable section

namespace Cert.KResult

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- If every edge's source is a node number, the contents the last host stretch leaves in the result array are
    G of the eight argument arrays. -/
theorem kernel_result (c : Dev nD)
    (hsrc : ∀ e : Fin 320000, 0 ≤ Cert.Sage.ends (m ((c : Thread nD τ).loc main_arg1)) 0 e
      ∧ Cert.Sage.ends (m ((c : Thread nD τ).loc main_arg1)) 0 e < 10000) :
    W10 (F := Ideal) m ρ c (Proc.devRef .tc main_v43)
      = Cert.Sage.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) :=
  Cert.KValue.result_eq_G m ρ c hsrc
    (fun r q => Cert.KRegion0.region0_entry (V7 m ρ) c r q)
    (fun r q => Cert.KRegion1.region1_entry (V8 m ρ) c r q)
    (fun a b => Cert.KHostCounts.W7_counts m ρ c a b)
    (fun a k => Cert.KHostArrays.W7_xpad m ρ c a k)
    (Cert.KHostArrays.W7_w1l m ρ c) (Cert.KHostArrays.W7_w1r m ρ c)
    (Cert.KHostArrays.W7_w2l m ρ c) (Cert.KHostArrays.W7_w2r m ρ c)
    (fun q => Cert.KHostArrays.W7_b1 m ρ c q) (fun q => Cert.KHostArrays.W7_b2 m ρ c q)

end Cert.KResult

end
-- ==== Proof.LibSegmentSum.lean ====
/-
  A scatter-add of rows, read at one entry, on the extended reals.

  E update rows of width D are added into an array of N rows; update row e goes to the row number its index word
  names (read as a signed integer, not clamped; a row number outside 0 … N − 1 drops the row). Update entry (e, k)
  lands on array entry (n, k') exactly when the e-th index word reads n and k = k'. So the result at (n, k) is the
  array's entry there plus the sum, over the update rows whose index word reads n, of their entries in column k:
  a segment sum.
-/
import Idealize.ShloMosaic.PureOps.Ideal
import Idealize.ShloMosaic.PureOps.Contract
import Idealize.ShloMosaic.Lib.ValueIdx
import proofs.«413754_j79628693668165_3_alg».proof.Proof.LibRowIndex

noncomputable section

namespace Cert.LibSegmentSum

open Idealize.ShloMosaic Idealize.ShloMosaic.ValueIdx Cert.RowIndex

open scoped BigOperators

section Coordinates

variable {N D E w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- Axis 0 of the array is the scattered one: the window starts at the row's index word, read signed. -/
private theorem start_zero :
    (rowScatterDims N D E wf).start j idx 0 = (idx (ix2 (j 0) (0 : Fin 1))).toInt := by
  unfold ScatterDims.start
  rw [dif_pos (show (0 : Fin 2) ∈ (rowScatterDims N D E wf).scatterDimsToOperandDims from List.mem_singleton.mpr rfl)]
  have hsi : (rowScatterDims N D E wf).siIdx j
      ⟨List.idxOf (0 : Fin 2) (rowScatterDims N D E wf).scatterDimsToOperandDims,
        List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- Axis 0 of the array is inserted: it carries no window coordinate. -/
private theorem window_zero : (rowScatterDims N D E wf).window j 0 = 0 := by
  unfold ScatterDims.window
  rw [dif_neg]
  intro hk
  simp [ScatterDims.sKept, Shape.kept, List.mem_filter] at hk

/-- Axis 1 of the array is not addressed by the index word: the window starts at column 0. -/
private theorem start_one : (rowScatterDims N D E wf).start j idx 1 = 0 := by
  unfold ScatterDims.start
  rw [dif_neg]
  intro hk
  exact Nat.one_ne_zero (congrArg Fin.val (List.mem_singleton.mp hk))

/-- Axis 1 of the array is the window axis: its window coordinate is the update's column. -/
private theorem window_one : (rowScatterDims N D E wf).window j 1 = (j 1).val := by
  unfold ScatterDims.window
  have h1 : (1 : Fin 2) ∈ (rowScatterDims N D E wf).sKept := by
    show (1 : Fin 2) ∈ (List.finRange 2).filter (fun a => decide (a ∉ [(0 : Fin 2)]))
    decide
  rw [dif_pos h1]
  rfl

end Coordinates

/-- WHERE AN UPDATE ENTRY LANDS: entry (e, k) of the updates lands on entry (n, k') of the array exactly when the
    e-th index word, read as a signed integer, is n, and the columns agree. -/
theorem rowScatter_resultIdx_iff {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N D E wf).resultIdx? (ix2 e k) idx = some (ix2 n k')
      ↔ (idx (ix2 e (0 : Fin 1))).toInt = (n.val : ℤ) ∧ k = k' := by
  have hs0 := start_zero wf idx (ix2 e k)
  have hw0 := window_zero wf (ix2 e k)
  have hs1 := start_one wf idx (ix2 e k)
  have hw1 := window_one wf (ix2 e k)
  have he : (ix2 e k : (⟨2, ![E, D]⟩ : Shape).Idx) 0 = e := rfl
  have hk : (ix2 e k : (⟨2, ![E, D]⟩ : Shape).Idx) 1 = k := rfl
  rw [he] at hs0
  rw [hk] at hw1
  constructor
  · intro h
    unfold ScatterDims.resultIdx? at h
    split at h
    · rename_i hall
      have hi := Option.some.inj h
      have h0 := hall 0
      have e0 : ((rowScatterDims N D E wf).start (ix2 e k) idx 0 + (rowScatterDims N D E wf).window (ix2 e k) 0).toNat
          = n.val := by
        have := congrArg (fun f : (⟨2, ![N, D]⟩ : Shape).Idx => (f 0).val) hi
        exact this
      have e1 : ((rowScatterDims N D E wf).start (ix2 e k) idx 1 + (rowScatterDims N D E wf).window (ix2 e k) 1).toNat
          = k'.val := by
        have := congrArg (fun f : (⟨2, ![N, D]⟩ : Shape).Idx => (f 1).val) hi
        exact this
      rw [hs0, hw0] at h0 e0
      rw [hs1, hw1] at e1
      refine ⟨?_, Fin.ext ?_⟩
      · have := h0.1
        omega
      · omega
    · exact absurd h (by simp)
  · rintro ⟨hn, rfl⟩
    have hall : ∀ a : Fin 2, 0 ≤ (rowScatterDims N D E wf).start (ix2 e k) idx a + (rowScatterDims N D E wf).window (ix2 e k) a
        ∧ (rowScatterDims N D E wf).start (ix2 e k) idx a + (rowScatterDims N D E wf).window (ix2 e k) a
          < (⟨2, ![N, D]⟩ : Shape).size a := by
      intro a
      match a with
      | ⟨0, _⟩ =>
        show 0 ≤ (rowScatterDims N D E wf).start (ix2 e k) idx 0 + (rowScatterDims N D E wf).window (ix2 e k) 0
          ∧ (rowScatterDims N D E wf).start (ix2 e k) idx 0 + (rowScatterDims N D E wf).window (ix2 e k) 0 < (N : ℤ)
        rw [hs0, hw0, hn]
        have := n.isLt
        omega
      | ⟨1, _⟩ =>
        show 0 ≤ (rowScatterDims N D E wf).start (ix2 e k) idx 1 + (rowScatterDims N D E wf).window (ix2 e k) 1
          ∧ (rowScatterDims N D E wf).start (ix2 e k) idx 1 + (rowScatterDims N D E wf).window (ix2 e k) 1 < (D : ℤ)
        rw [hs1, hw1]
        have := k.isLt
        omega
    unfold ScatterDims.resultIdx?
    rw [dif_pos hall]
    congr 1
    funext a
    refine Fin.ext ?_
    match a with
    | ⟨0, _⟩ =>
      show ((rowScatterDims N D E wf).start (ix2 e k) idx 0 + (rowScatterDims N D E wf).window (ix2 e k) 0).toNat = n.val
      rw [hs0, hw0, hn]
      omega
    | ⟨1, _⟩ =>
      show ((rowScatterDims N D E wf).start (ix2 e k) idx 1 + (rowScatterDims N D E wf).window (ix2 e k) 1).toNat = k.val
      rw [hs1, hw1]
      omega

/-- THE SCATTER-ADD READ AT (n, k): the array's entry plus the sum, over the update rows whose index word reads n,
    of the update's entry in column k. -/
theorem scatterAdd_row_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w)
    (upd : FVec Ideal ⟨2, ![E, D]⟩ φ) (n : Fin N) (k : Fin D) :
    Host.scatterAdd (rowScatterDims N D E wf) x idx upd (ix2 n k)
      = x (ix2 n k) + ∑ e ∈ Finset.univ.filter (fun e : Fin E => (idx (ix2 e (0 : Fin 1))).toInt = (n.val : ℤ)),
          upd (ix2 e k) := by
  show x (ix2 n k) + ∑ j ∈ Finset.univ.filter
      (fun j => (rowScatterDims N D E wf).resultIdx? j idx = some (ix2 n k)), upd j = _
  congr 1
  symm
  refine Finset.sum_bij (fun e _ => (ix2 e k : (⟨2, ![E, D]⟩ : Shape).Idx)) ?_ ?_ ?_ ?_
  · intro e he
    rw [Finset.mem_filter] at he ⊢
    exact ⟨Finset.mem_univ _, (rowScatter_resultIdx_iff wf idx e k n k).mpr ⟨he.2, rfl⟩⟩
  · intro e₁ _ e₂ _ h
    have := congrFun h 0
    exact this
  · intro j hj
    rw [Finset.mem_filter] at hj
    have hj2 := hj.2
    rw [eq_ix2 j] at hj2
    have := (rowScatter_resultIdx_iff wf idx (j 0) (j 1) n k).mp hj2
    refine ⟨j 0, Finset.mem_filter.mpr ⟨Finset.mem_univ _, this.1⟩, ?_⟩
    · rw [← this.2]
      exact (eq_ix2 j).symm
  · intro e _
    rfl

end Cert.LibSegmentSum

end
-- ==== Proof.RefValue.lean ====
/-
  The reference program's result is the specification, index by index.

  The reference runs two layers of a sum-aggregating graph convolution as array operations: it looks up the rows of the
  source nodes (after a wrap-around of negative source numbers), adds them into the rows named by the end numbers
  starting from zeros, multiplies by the left weights, adds the bias and the node's own row through the right weights,
  takes max(·, 0) after the first layer, and does the same again on the hidden features. When every source number is
  a node number the wrap-around and the lookup's clamp do nothing, the scatter-add of the looked-up rows is the sum over
  the edges ending at a node of the source rows, and entry (r, c) of the result is the specification's out … r c. The
  end numbers are unconstrained: an end that is no node number drops its edge on both sides.
-/
import proofs.«413754_j79628693668165_3_alg».proof.Proof.Gen.ReferenceIdeal.Run
import proofs.«413754_j79628693668165_3_alg».proof.Proof.Gen.ReferenceIdeal.Read
import proofs.«413754_j79628693668165_3_alg».proof.Proof.SageSpec
import proofs.«413754_j79628693668165_3_alg».proof.Proof.LibRowIndex
import proofs.«413754_j79628693668165_3_alg».proof.Proof.LibPlainMatmul
import proofs.«413754_j79628693668165_3_alg».proof.Proof.LibSegmentSum

noncomputable section

namespace Cert.RefValue

open Idealize.ShloMosaic Idealize.ShloMosaic.ValueIdx Cert.LibRowGather Cert.RowIndex Cert.LibSegmentSum
open Cert.ReferenceIdeal Cert.ReferenceIdeal.Gen Cert.ReferenceIdeal.Read

open scoped BigOperators

/-! ## The aggregate: a scatter-add of gathered rows is a segment sum -/

/-- Rows looked up by source number and then added into the rows named by the end numbers, starting from zeros: at
    (n, k) this is the sum, over the edges that end at n, of the source row's entry in column k. Every source is a
    row number, so the lookup's clamp does nothing; an end that is no row number drops its edge. -/
theorem scatter_gather_apply {N D E w : Nat} {φ : FTy} (hN : 0 < N)
    (wfg : GatherDims.WF ⟨2, ![N, D]⟩ ⟨2, ![E, 1]⟩ ⟨2, ![E, D]⟩ [1] [0] [] [0] [] 1 ![1, D])
    (wfs : ScatterDims.WF ⟨2, ![N, D]⟩ ⟨2, ![E, 1]⟩ ⟨2, ![E, D]⟩ [1] [0] [0] 1)
    (zero x : FVec Ideal ⟨2, ![N, D]⟩ φ) (hz : ∀ i, zero i = 0)
    (srcs dsts : IVec ⟨2, ![E, 1]⟩ w)
    (hsrc : ∀ e : Fin E, 0 ≤ (srcs (ix2 e (0 : Fin 1))).toInt ∧ (srcs (ix2 e (0 : Fin 1))).toInt < (N : ℤ))
    (n : Fin N) (k : Fin D) :
    Host.scatterAdd (rowScatterDims N D E wfs) zero dsts (Host.gather (rowDims N D E wfg) x srcs) (ix2 n k)
      = Cert.Sage.segsum (fun e => (srcs (ix2 e (0 : Fin 1))).toInt) (fun e => (dsts (ix2 e (0 : Fin 1))).toInt)
          (Cert.Sage.mat x) n k := by
  rw [scatterAdd_row_apply, hz, zero_add]
  unfold Cert.Sage.segsum
  refine Finset.sum_congr rfl fun e _ => ?_
  rw [gather_row_apply hN]
  obtain ⟨h0, h1⟩ := hsrc e
  unfold Cert.Sage.rowAt
  rw [dif_pos ⟨h0, h1⟩]
  have hc : clampRow N hN (srcs (ix2 e (0 : Fin 1))) = ⟨(srcs (ix2 e (0 : Fin 1))).toInt.toNat, by omega⟩ :=
    clampRow_of_toInt hN _ ⟨(srcs (ix2 e (0 : Fin 1))).toInt.toNat, by omega⟩ (by
      show _ = (((srcs (ix2 e (0 : Fin 1))).toInt.toNat : ℕ) : ℤ)
      omega)
  rw [hc]
  rfl

/-- The printed dimension records are the row lookup's and the row scatter's. -/
theorem gather256_eq : gather_S10000x256_S320000x1_S320000x256_1_0_n_n_0_1_1256
    = rowDims 10000 256 320000 Cert.ReferenceIdeal.Gen.gather_S10000x256_S320000x1_S320000x256_1_0_n_n_0_1_1256_wf := rfl
theorem scatter256_eq : scatter_S10000x256_S320000x1_S320000x256_1_0_0_1
    = rowScatterDims 10000 256 320000 Cert.ReferenceIdeal.Gen.scatter_S10000x256_S320000x1_S320000x256_1_0_0_1_wf := rfl
theorem gather512_eq : gather_S10000x512_S320000x1_S320000x512_1_0_n_n_0_1_1512
    = rowDims 10000 512 320000 Cert.ReferenceIdeal.Gen.gather_S10000x512_S320000x1_S320000x512_1_0_n_n_0_1_1512_wf := rfl
theorem scatter512_eq : scatter_S10000x512_S320000x1_S320000x512_1_0_0_1
    = rowScatterDims 10000 512 320000 Cert.ReferenceIdeal.Gen.scatter_S10000x512_S320000x1_S320000x512_1_0_0_1_wf := rfl

/-! ## The index words the lookups and the scatters read -/

section Words

variable (x1 : (⟨S2x320000, .i32⟩ : BufTy).Contents (Elt Ideal))

/-- The word the first layer's lookup reads for edge e is the e-th source number: the wrap-around of negative
    numbers (add 10000 where the word is negative) leaves a non-negative word alone. -/
theorem v9_word (e : Fin 320000) (h : 0 ≤ Cert.Sage.ends x1 0 e) :
    val_main_v9 (F := Ideal) x1 (ix2 e (0 : Fin 1)) = x1 (ix2 (0 : Fin 2) e) := by
  rw [val_main_v9_apply, val_main_v8_apply, val_main_v5_apply, val_main_v7_apply, val_main_v4_apply, val_main_c_apply,
    val_main_v6_apply, val_main_c_0_apply, val_main_v1_apply, val_main_v0_apply]
  have hi : idx_main_v0 (idx_main_v1 (idx_main_v9 (ix2 e (0 : Fin 1)))) = ix2 (0 : Fin 2) e := by
    funext a; refine Fin.ext ?_
    match a with
    | ⟨0, _⟩ => rfl
    | ⟨1, _⟩ => exact Nat.mod_eq_of_lt e.isLt
  rw [hi]
  exact wrap_of_nonneg _ _ h

/-- The same for the second layer's lookup. -/
theorem v26_word (e : Fin 320000) (h : 0 ≤ Cert.Sage.ends x1 0 e) :
    val_main_v26 (F := Ideal) x1 (ix2 e (0 : Fin 1)) = x1 (ix2 (0 : Fin 2) e) := by
  rw [val_main_v26_apply, val_main_v25_apply, val_main_v22_apply, val_main_v24_apply, val_main_v21_apply,
    val_main_c_1_apply, val_main_v23_apply, val_main_c_2_apply, val_main_v1_apply, val_main_v0_apply]
  have hi : idx_main_v0 (idx_main_v1 (idx_main_v26 (ix2 e (0 : Fin 1)))) = ix2 (0 : Fin 2) e := by
    funext a; refine Fin.ext ?_
    match a with
    | ⟨0, _⟩ => rfl
    | ⟨1, _⟩ => exact Nat.mod_eq_of_lt e.isLt
  rw [hi]
  exact wrap_of_nonneg _ _ h

/-- The word the first layer's scatter reads for edge e is the e-th end number, as it stands. -/
theorem v12_word (e : Fin 320000) :
    val_main_v12 (F := Ideal) x1 (ix2 e (0 : Fin 1)) = x1 (ix2 (1 : Fin 2) e) := by
  rw [val_main_v12_apply, val_main_v3_apply, val_main_v2_apply]
  have hi : idx_main_v2 (idx_main_v3 (idx_main_v12 (ix2 e (0 : Fin 1)))) = ix2 (1 : Fin 2) e := by
    funext a; refine Fin.ext ?_
    match a with
    | ⟨0, _⟩ => rfl
    | ⟨1, _⟩ => exact Nat.mod_eq_of_lt e.isLt
  rw [hi]

/-- The same for the second layer's scatter. -/
theorem v29_word (e : Fin 320000) :
    val_main_v29 (F := Ideal) x1 (ix2 e (0 : Fin 1)) = x1 (ix2 (1 : Fin 2) e) := by
  rw [val_main_v29_apply, val_main_v3_apply, val_main_v2_apply]
  have hi : idx_main_v2 (idx_main_v3 (idx_main_v29 (ix2 e (0 : Fin 1)))) = ix2 (1 : Fin 2) e := by
    funext a; refine Fin.ext ?_
    match a with
    | ⟨0, _⟩ => rfl
    | ⟨1, _⟩ => exact Nat.mod_eq_of_lt e.isLt
  rw [hi]

end Words

/-! ## The two layers -/

section Layers

variable (x0 : (⟨S10000x256, .f32⟩ : BufTy).Contents (Elt Ideal)) (x1 : (⟨S2x320000, .i32⟩ : BufTy).Contents (Elt Ideal))
  (x2 : (⟨S256x512, .f32⟩ : BufTy).Contents (Elt Ideal)) (x3 : (⟨S512, .f32⟩ : BufTy).Contents (Elt Ideal))
  (x4 : (⟨S256x512, .f32⟩ : BufTy).Contents (Elt Ideal)) (x5 : (⟨S512x128, .f32⟩ : BufTy).Contents (Elt Ideal))
  (x6 : (⟨S128, .f32⟩ : BufTy).Contents (Elt Ideal)) (x7 : (⟨S512x128, .f32⟩ : BufTy).Contents (Elt Ideal))
  (hsrc : ∀ e : Fin 320000, 0 ≤ Cert.Sage.ends x1 0 e ∧ Cert.Sage.ends x1 0 e < 10000)

include hsrc

/-- The first layer's aggregate at (n, k): the sum, over the edges ending at n, of the source node's input feature k. -/
theorem v13_apply (n : Fin 10000) (k : Fin 256) :
    val_main_v13 (F := Ideal) x0 x1 (ix2 n k)
      = Cert.Sage.segsum (Cert.Sage.ends x1 0) (Cert.Sage.ends x1 1) (Cert.Sage.mat x0) n k := by
  unfold val_main_v13 val_main_v10
  rw [scatter256_eq, gather256_eq]
  have hz : ∀ i, val_main_v11 (F := Ideal) i = 0 := fun i => by
    rw [val_main_v11_apply, val_main_cst_apply]
    exact Ideal.ofBits_zero_f32
  have hs : ∀ e : Fin 320000, 0 ≤ (val_main_v9 (F := Ideal) x1 (ix2 e (0 : Fin 1))).toInt
      ∧ (val_main_v9 (F := Ideal) x1 (ix2 e (0 : Fin 1))).toInt < ((10000 : ℕ) : ℤ) := fun e => by
    rw [v9_word x1 e (hsrc e).1]
    exact hsrc e
  rw [scatter_gather_apply (by decide) _ _ _ x0 hz _ _ hs]
  have e0 : (fun e : Fin 320000 => (val_main_v9 (F := Ideal) x1 (ix2 e (0 : Fin 1))).toInt) = Cert.Sage.ends x1 0 :=
    funext fun e => by rw [v9_word x1 e (hsrc e).1]; rfl
  have e1 : (fun e : Fin 320000 => (val_main_v12 (F := Ideal) x1 (ix2 e (0 : Fin 1))).toInt) = Cert.Sage.ends x1 1 :=
    funext fun e => by rw [v12_word x1 e]; rfl
  rw [e0, e1]

/-- The hidden features at (r, c): the first layer followed by max(·, 0). -/
theorem v20_apply (r : Fin 10000) (c : Fin 512) :
    val_main_v20 (F := Ideal) x0 x1 x2 x3 x4 (ix2 r c)
      = Cert.Sage.hidden (Cert.Sage.ends x1 0) (Cert.Sage.ends x1 1) (Cert.Sage.mat x0) (Cert.Sage.mat x2)
          (Cert.Sage.mat x4) (Cert.Sage.vec x3) r c := by
  rw [val_main_v20_apply, val_main_v19_apply, val_main_v17_apply, val_main_v14_apply, val_main_v18_apply,
    val_main_v16_apply, val_main_v15_apply, val_main_call0_v0_apply, val_main_call0_cst_apply]
  have hl : ∀ k : Fin 256, lidx_main_v14 (ix2 r c) k = ix2 r k := fun k => by
    funext a; match a with | ⟨0, _⟩ => rfl | ⟨1, _⟩ => rfl
  have hr : ∀ k : Fin 256, ridx_main_v14 (ix2 r c) k = ix2 k c := fun k => by
    funext a; match a with | ⟨0, _⟩ => rfl | ⟨1, _⟩ => rfl
  have hl' : ∀ k : Fin 256, lidx_main_v18 (ix2 r c) k = ix2 r k := fun k => by
    funext a; match a with | ⟨0, _⟩ => rfl | ⟨1, _⟩ => rfl
  have hr' : ∀ k : Fin 256, ridx_main_v18 (ix2 r c) k = ix2 k c := fun k => by
    funext a; match a with | ⟨0, _⟩ => rfl | ⟨1, _⟩ => rfl
  have hb : idx_main_v15 (idx_main_v16 (ix2 r c)) = ix1 c := by
    funext a; match a with | ⟨0, _⟩ => rfl
  simp only [hl, hr, hl', hr', hb, v13_apply x0 x1 hsrc]
  show max (_ + _ + _) (Ideal.ofBits .f32 0x00000000#32) = _
  rw [Ideal.ofBits_zero_f32]
  rfl

/-- The hidden features, as a table, are the specification's. -/
theorem mat_v20 :
    Cert.Sage.mat (val_main_v20 (F := Ideal) x0 x1 x2 x3 x4)
      = Cert.Sage.hidden (Cert.Sage.ends x1 0) (Cert.Sage.ends x1 1) (Cert.Sage.mat x0) (Cert.Sage.mat x2)
          (Cert.Sage.mat x4) (Cert.Sage.vec x3) :=
  funext fun r => funext fun c => v20_apply x0 x1 x2 x3 x4 hsrc r c

/-- The second layer's aggregate at (n, k): the sum, over the edges ending at n, of the source node's hidden feature k. -/
theorem v30_apply (n : Fin 10000) (k : Fin 512) :
    val_main_v30 (F := Ideal) x0 x1 x2 x3 x4 (ix2 n k)
      = Cert.Sage.segsum (Cert.Sage.ends x1 0) (Cert.Sage.ends x1 1)
          (Cert.Sage.hidden (Cert.Sage.ends x1 0) (Cert.Sage.ends x1 1) (Cert.Sage.mat x0) (Cert.Sage.mat x2)
            (Cert.Sage.mat x4) (Cert.Sage.vec x3)) n k := by
  unfold val_main_v30 val_main_v27
  rw [scatter512_eq, gather512_eq]
  have hz : ∀ i, val_main_v28 (F := Ideal) i = 0 := fun i => by
    rw [val_main_v28_apply, val_main_cst_3_apply]
    exact Ideal.ofBits_zero_f32
  have hs : ∀ e : Fin 320000, 0 ≤ (val_main_v26 (F := Ideal) x1 (ix2 e (0 : Fin 1))).toInt
      ∧ (val_main_v26 (F := Ideal) x1 (ix2 e (0 : Fin 1))).toInt < ((10000 : ℕ) : ℤ) := fun e => by
    rw [v26_word x1 e (hsrc e).1]
    exact hsrc e
  rw [scatter_gather_apply (by decide) _ _ _ (val_main_v20 (F := Ideal) x0 x1 x2 x3 x4) hz _ _ hs]
  have e0 : (fun e : Fin 320000 => (val_main_v26 (F := Ideal) x1 (ix2 e (0 : Fin 1))).toInt) = Cert.Sage.ends x1 0 :=
    funext fun e => by rw [v26_word x1 e (hsrc e).1]; rfl
  have e1 : (fun e : Fin 320000 => (val_main_v29 (F := Ideal) x1 (ix2 e (0 : Fin 1))).toInt) = Cert.Sage.ends x1 1 :=
    funext fun e => by rw [v29_word x1 e]; rfl
  rw [e0, e1, mat_v20 x0 x1 x2 x3 x4 hsrc]

/-- The result at (r, c): the second layer over the hidden features. -/
theorem v36_apply (r : Fin 10000) (c : Fin 128) :
    val_main_v36 (F := Ideal) x0 x1 x2 x3 x4 x5 x6 x7 (ix2 r c)
      = Cert.Sage.out (Cert.Sage.ends x1 0) (Cert.Sage.ends x1 1) (Cert.Sage.mat x0) (Cert.Sage.mat x2)
          (Cert.Sage.mat x4) (Cert.Sage.vec x3) (Cert.Sage.mat x5) (Cert.Sage.mat x7) (Cert.Sage.vec x6) r c := by
  rw [val_main_v36_apply, val_main_v34_apply, val_main_v31_apply, val_main_v35_apply,
    val_main_v33_apply, val_main_v32_apply]
  have hl : ∀ k : Fin 512, lidx_main_v31 (ix2 r c) k = ix2 r k := fun k => by
    funext a; match a with | ⟨0, _⟩ => rfl | ⟨1, _⟩ => rfl
  have hr : ∀ k : Fin 512, ridx_main_v31 (ix2 r c) k = ix2 k c := fun k => by
    funext a; match a with | ⟨0, _⟩ => rfl | ⟨1, _⟩ => rfl
  have hl' : ∀ k : Fin 512, lidx_main_v35 (ix2 r c) k = ix2 r k := fun k => by
    funext a; match a with | ⟨0, _⟩ => rfl | ⟨1, _⟩ => rfl
  have hr' : ∀ k : Fin 512, ridx_main_v35 (ix2 r c) k = ix2 k c := fun k => by
    funext a; match a with | ⟨0, _⟩ => rfl | ⟨1, _⟩ => rfl
  have hb : idx_main_v32 (idx_main_v33 (ix2 r c)) = ix1 c := by
    funext a; match a with | ⟨0, _⟩ => rfl
  simp only [hl, hr, hl', hr', hb, v30_apply x0 x1 x2 x3 x4 hsrc, v20_apply x0 x1 x2 x3 x4 hsrc]
  rfl

/-- THE REFERENCE IS THE SPECIFICATION: the reference program's result, as a function of its eight arguments, is G,
    provided every source number is a node number. -/
theorem val_eq_G :
    Cert.ReferenceIdeal.Read.val_main_v36 (F := Ideal) x0 x1 x2 x3 x4 x5 x6 x7 = Cert.Sage.G x0 x1 x2 x3 x4 x5 x6 x7 := by
  funext i
  obtain ⟨r, c, rfl⟩ : ∃ r c, i = ix2 r c := ⟨i 0, i 1, eq_ix2 i⟩
  exact v36_apply x0 x1 x2 x3 x4 x5 x6 x7 hsrc r c

end Layers

/-- The same for the run's result term: on a device whose memory holds the arguments, the reference program's result
    buffer ends at G of the argument buffers, provided every source number there is a node number. -/
theorem res_eq_G (m : (ℓ : Loc Cert.ReferenceIdeal.nD Cert.ReferenceIdeal.τ Cert.ReferenceIdeal.sig) → Buf (Elt Ideal) ℓ)
    (c : Dev Cert.ReferenceIdeal.nD)
    (hsrc : ∀ e : Fin 320000,
      0 ≤ Cert.Sage.ends (m ((c.tc : Thread Cert.ReferenceIdeal.nD Cert.ReferenceIdeal.τ).loc Cert.ReferenceIdeal.main_arg1)) 0 e
        ∧ Cert.Sage.ends (m ((c.tc : Thread Cert.ReferenceIdeal.nD Cert.ReferenceIdeal.τ).loc Cert.ReferenceIdeal.main_arg1)) 0 e < 10000) :
    Cert.ReferenceIdeal.Value.res_main_v36 (F := Ideal) m c
      = Cert.Sage.G (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  rw [val_main_v36_eq]
  exact val_eq_G _ _ _ _ _ _ _ _ hsrc

end Cert.RefValue

end
-- ==== Proof.lean ====
/-
  Two layers of a sum-aggregating graph convolution: every node d is sent to
  (sum over the edges e ending at d of the row of e's source) · Wl + b + (row of d) · Wr, with max(·, 0) after the first
  layer.  The kernel computes the aggregate as a dense matrix product with the table of edge counts; the reference
  computes it by gathering the source rows and scatter-adding them at the edge ends.  On the extended reals the two
  results are equal entry by entry whenever every edge's source is a node number, and the precondition states
  exactly that (among its finiteness tests): both programs end at one function G of the eight argument arrays.
-/
import proofs.«413754_j79628693668165_3_alg».proof.Defs
import proofs.«413754_j79628693668165_3_alg».proof.Proof.Gen.Kernel
import proofs.«413754_j79628693668165_3_alg».proof.Proof.Gen.Kernel.Skeleton
import proofs.«413754_j79628693668165_3_alg».proof.Proof.Gen.Kernel.Launch
import proofs.«413754_j79628693668165_3_alg».proof.Proof.Gen.Kernel.Points
import proofs.«413754_j79628693668165_3_alg».proof.Proof.Gen.Kernel.Frame
import proofs.«413754_j79628693668165_3_alg».proof.Proof.Gen.KernelIdeal
import proofs.«413754_j79628693668165_3_alg».proof.Proof.Gen.KernelIdeal.Skeleton
import proofs.«413754_j79628693668165_3_alg».proof.Proof.Gen.KernelIdeal.Launch
import proofs.«413754_j79628693668165_3_alg».proof.Proof.Gen.KernelIdeal.Points
import proofs.«413754_j79628693668165_3_alg».proof.Proof.Gen.KernelIdeal.Frame
import proofs.«413754_j79628693668165_3_alg».proof.Proof.Gen.ReferenceIdeal
import proofs.«413754_j79628693668165_3_alg».proof.Proof.Gen.Pre_finite_inputs
import Idealize.ShloMosaic.Adequacy
import Idealize.ShloMosaic.Init
import proofs.«413754_j79628693668165_3_alg».proof.Proof.Gen.ReferenceIdeal.Run
import proofs.«413754_j79628693668165_3_alg».proof.Proof.SageSpec
import proofs.«413754_j79628693668165_3_alg».proof.Proof.PreDecode
import proofs.«413754_j79628693668165_3_alg».proof.Proof.KFrameRun
import proofs.«413754_j79628693668165_3_alg».proof.Proof.KResult
import proofs.«413754_j79628693668165_3_alg».proof.Proof.RefValue

noncomputable section

open Idealize.ShloMosaic Idealize.SL.Sem

/-! ## The five claims, one by one -/

namespace Cert.Proof.Claims

/-- The kernel as printed runs to the end without a fault and leaves its eight arguments as they were. -/
theorem frame_kernel : Cert.frame_Kernel := fun m ρ _ => Cert.Kernel.Gen.frame m ρ

/-- The same for the kernel read over the extended reals. -/
theorem frame_kernelIdeal : Cert.frame_KernelIdeal := fun m ρ _ => Cert.KernelIdeal.Gen.frame m ρ

/-- The reference over the extended reals runs to the end and leaves its arguments as they were: its run's
    statement with the conjunct about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals, so there is nothing to preserve. -/
theorem preserves : Cert.preserves_Kernel_KernelIdeal := trivial

/-- From memories that agree on the eight arguments, of which the precondition holds, both programs end with their
    result array at G of the arguments.  The precondition gives that every source number is a node number; under
    that, the kernel's result is G of its arguments, the reference's result is G of its own, and the two tuples of
    arguments are equal by hypothesis. -/
theorem algebraic : Cert.algebraic_KernelIdeal_ReferenceIdeal := by
  intro m ρ m' ρ' hpre hagree
  -- every source number is a node number, on every device
  have hsrc : ∀ (c : Dev Cert.KernelIdeal.nD) (e : Fin 320000),
      0 ≤ Cert.Sage.ends (m ((c.tc : Thread Cert.KernelIdeal.nD Cert.KernelIdeal.τ).loc Cert.KernelIdeal.main_arg1)) 0 e
        ∧ Cert.Sage.ends (m ((c.tc : Thread Cert.KernelIdeal.nD Cert.KernelIdeal.τ).loc Cert.KernelIdeal.main_arg1)) 0 e < 10000 :=
    fun c => Cert.PreDecode.src_range _ _ _ _ _ _ _ _ (hpre c)
  refine ⟨fun c => Cert.Sage.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · -- the kernel: its result array ends at what the last host stretch leaves there, and that is G
    exact (θ_run Cert.KernelIdeal.defs _ _).mono
      (fun _ h c => ⟨(h c).1.trans (Cert.KResult.kernel_result m ρ c (hsrc c)), (h c).2⟩)
      (Cert.KernelIdeal.Run.run_result (F := Ideal) m ρ)
  · -- the reference: its result term is G of its own arguments, which are the kernel's
    refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.RefValue.res_eq_G m' c (by rw [e1]; exact hsrc c), e0, e1, e2, e3, e4, e5, e6, e7]

end Cert.Proof.Claims

/-! ## The certificate -/

namespace Cert.Proof

/-- All five claims, under the side conditions the programs and the precondition state (each proved in its own module). -/
theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
